-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128x256 .f32) (main_arg9 : FVec F S128 .f32) (main_arg10 : FVec F S128 .f32) (main_arg11 : FVec F S128 .f32) (main_arg12 : FVec F S128 .f32) (main_arg13 : FVec F S128 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128x128 .f32) (main_arg6 : FVec F S256x128 .f32) (main_arg7 : FVec F S256 .f32) (main_arg8 : FVec F S128x256 .f32) (main_arg9 : FVec F S128 .f32) (main_arg10 : FVec F S128 .f32) (main_arg11 : FVec F S128 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S100000 .f32) (main_arg3 : FVec F S128x128 .f32) (main_arg4 : FVec F S128 .f32) (main_arg5 : FVec F S128x128 .f32) (main_arg6 : FVec F S256x128 .f32) (main_arg7 : FVec F S256 .f32) (main_arg8 : FVec F S128x256 .f32) (main_arg9 : FVec F S128 .f32) (main_arg10 : FVec F S128 .f32) (main_arg11 : FVec F S128 .f32) (main_arg12 : FVec F S128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S1x128 : Shape := ⟨2, ![1, 128]⟩
abbrev S1x256 : Shape := ⟨2, ![1, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩

abbrev nBuf : Space → Nat
  | .hbm => 53
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S256x128, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x128, .f32⟩
  | .hbm, ⟨15, _⟩ => ⟨S1x256, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S1x1600000, .i32⟩
  | .hbm, ⟨23, _⟩ => ⟨S1600000, .i32⟩
  | .hbm, ⟨24, _⟩ => ⟨S1x1600000, .i32⟩
  | .hbm, ⟨25, _⟩ => ⟨S1600000, .i32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x1, .f32⟩
  | .hbm, ⟨50, _⟩ => ⟨S1x128, .f32⟩
  | .hbm, ⟨51, _⟩ => ⟨S1x128, .f32⟩
  | .hbm, ⟨52, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S256x128, .f32⟩
  | .local _ .vmem, ⟨6, _⟩ => ⟨S1x256, .f32⟩
  | .local _ .vmem, ⟨7, _⟩ => ⟨S128x256, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S128_S1x128 : S128.ShapeCasts S1x128
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S128x256_S128x256_0_0 : ∀ a, (![0, 0] : Fin 2 → Nat) a + S128x256.size a ≤ S128x256.size a
  h_S128x256 : 0 < S128x256.numel
  reduces_S2000x128_S2000 : S2000x128.Reduces [1] S2000
  shapeCasts_S2000_S2000x1 : S2000.ShapeCasts S2000x1
  broadcasts_S2000x1_S2000x128 : S2000x1.Broadcasts S2000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S100000_S100000x1 : S100000.ShapeCasts S100000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  dot_S2000x128_S128x128_S2000x128_1_1_0_0_n_n_wf : DotDims.WF S2000x128 S128x128 S2000x128 [1] [1] [0] [0] [] []
  dot_S2000x128_S256x128_S2000x256_1_1_0_0_n_n_wf : DotDims.WF S2000x128 S256x128 S2000x256 [1] [1] [0] [0] [] []
  dot_S2000x256_S128x256_S2000x128_1_1_0_0_n_n_wf : DotDims.WF S2000x256 S128x256 S2000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .f32 = 32 ∨ (Rect.block (s := S100000x128) S2000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S100000x128.size a
  hwx0_12 : ∀ i : grid0.Coords, EltTy.bits .f32 = 32 ∨ (Rect.block (s := S100000x128) S2000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)

variable [Facts₀]

def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def dot_S2000x256_S128x256_S2000x128_1_1_0_0_n_n : DotDims S2000x256 S128x256 S2000x128 where
  lhsContracting := [1]
  rhsContracting := [1]
  lhsNonContracting := [0]
  rhsNonContracting := [0]
  lhsBatch := []
  rhsBatch := []
  wf := dot_S2000x256_S128x256_S2000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_2) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v5_1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S_ : Shape := ⟨0, ![]⟩
abbrev S100000x256 : Shape := ⟨2, ![100000, 256]⟩
abbrev S1x256 : Shape := ⟨2, ![1, 256]⟩
abbrev S1x128 : Shape := ⟨2, ![1, 128]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x1600000, .i32⟩
  | 2 => ⟨S100000, .f32⟩
  | 3 => ⟨S128x128, .f32⟩
  | 4 => ⟨S128, .f32⟩
  | 5 => ⟨S128x128, .f32⟩
  | 6 => ⟨S256x128, .f32⟩
  | 7 => ⟨S256, .f32⟩
  | 8 => ⟨S128x256, .f32⟩
  | 9 => ⟨S128, .f32⟩
  | 10 => ⟨S128, .f32⟩
  | 11 => ⟨S128, .f32⟩
  | 12 => ⟨S128, .f32⟩
  | 13 => ⟨S128, .f32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S100000x128, .f32⟩
  | 20 => ⟨S100000x128, .i1⟩
  | 21 => ⟨S100000x128, .f32⟩
  | 22 => ⟨S100000x128, .f32⟩
  | 23 => ⟨S100000x128, .f32⟩
  | 24 => ⟨S100000x128, .f32⟩
  | 25 => ⟨S100000x128, .f32⟩
  | 26 => ⟨S100000x128, .f32⟩
  | 27 => ⟨S100000x128, .f32⟩
  | 28 => ⟨S100000x128, .f32⟩
  | 29 => ⟨S100000x256, .f32⟩
  | 30 => ⟨S1x256, .f32⟩
  | 31 => ⟨S100000x256, .f32⟩
  | 32 => ⟨S100000x256, .f32⟩
  | 33 => ⟨S_, .f32⟩
  | 34 => ⟨S100000x256, .f32⟩
  | 35 => ⟨S100000x256, .f32⟩
  | 36 => ⟨S100000x256, .f32⟩
  | 37 => ⟨S100000x256, .f32⟩
  | 38 => ⟨S100000x256, .i1⟩
  | 39 => ⟨S100000x256, .f32⟩
  | 40 => ⟨S100000x256, .f32⟩
  | 41 => ⟨S100000x256, .f32⟩
  | 42 => ⟨S100000x256, .f32⟩
  | 43 => ⟨S100000x256, .f32⟩
  | 44 => ⟨S100000x256, .f32⟩
  | 45 => ⟨S100000x256, .f32⟩
  | 46 => ⟨S100000x256, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x128, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S_, .f32⟩
  | 69 => ⟨S100000x1, .f32⟩
  | 70 => ⟨S100000x1, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x1600000, .i32⟩
  | 85 => ⟨S1600000, .i32⟩
  | 86 => ⟨S1x1600000, .i32⟩
  | 87 => ⟨S1600000, .i32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x128, .f32⟩
  | 112 => ⟨S100000x128, .f32⟩
  | 113 => ⟨S100000x1, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S100000x128, .f32⟩
  | 124 => ⟨S_, .f32⟩
  | 125 => ⟨S100000, .f32⟩
  | 126 => ⟨S100000x1, .f32⟩
  | 127 => ⟨S_, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S100000x128, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x128, .f32⟩
  | 12 => ⟨S100000x128, .f32⟩
  | 13 => ⟨S_, .f32⟩
  | 14 => ⟨S100000x1, .f32⟩
  | 15 => ⟨S100000x1, .f32⟩
  | 16 => ⟨S100000x1, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst : Ref sig .tc := ⟨.hbm, 51, rfl⟩
abbrev main_v11 : Ref sig .tc := ⟨.hbm, 52, rfl⟩
abbrev main_v12 : Ref sig .tc := ⟨.hbm, 53, rfl⟩
abbrev main_cst_0 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_1 : Ref sig .tc := ⟨.hbm, 60, rfl⟩
abbrev main_v18 : Ref sig .tc := ⟨.hbm, 61, rfl⟩
abbrev main_v19 : Ref sig .tc := ⟨.hbm, 62, rfl⟩
abbrev main_cst_2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_3 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c : Ref sig .tc := ⟨.hbm, 88, rfl⟩
abbrev main_v43 : Ref sig .tc := ⟨.hbm, 89, rfl⟩
abbrev main_v44 : Ref sig .tc := ⟨.hbm, 90, rfl⟩
abbrev main_c_4 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_c_5 : Ref sig .tc := ⟨.hbm, 97, rfl⟩
abbrev main_v50 : Ref sig .tc := ⟨.hbm, 98, rfl⟩
abbrev main_v51 : Ref sig .tc := ⟨.hbm, 99, rfl⟩
abbrev main_c_6 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_7 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_8 : Ref sig .tc := ⟨.hbm, 116, rfl⟩
abbrev main_v66 : Ref sig .tc := ⟨.hbm, 117, rfl⟩
abbrev main_v67 : Ref sig .tc := ⟨.hbm, 118, rfl⟩
abbrev main_cst_9 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_10 : Ref sig .tc := ⟨.hbm, 124, rfl⟩
abbrev main_v72 : Ref sig .tc := ⟨.hbm, 125, rfl⟩
abbrev main_v73 : Ref sig .tc := ⟨.hbm, 126, rfl⟩
abbrev main_cst_11 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_12 : Ref sig .tc := ⟨.hbm, 133, rfl⟩
abbrev main_v79 : Ref sig .tc := ⟨.hbm, 134, rfl⟩
abbrev main_v80 : Ref sig .tc := ⟨.hbm, 135, rfl⟩
abbrev main_cst_13 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_14 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  dot_S100000x128_S128x128_S100000x128_1_1_0_0_n_n_wf : DotDims.WF S100000x128 S128x128 S100000x128 [1] [1] [0] [0] [] []
  dot_S100000x128_S256x128_S100000x256_1_1_0_0_n_n_wf : DotDims.WF S100000x128 S256x128 S100000x256 [1] [1] [0] [0] [] []
  dot_S100000x256_S128x256_S100000x128_1_1_0_0_n_n_wf : DotDims.WF S100000x256 S128x256 S100000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf
def dot_S100000x128_S256x128_S100000x256_1_1_0_0_n_n : DotDims S100000x128 S256x128 S100000x256 where
  lhsContracting := [1]
  rhsContracting := [1]
  lhsNonContracting := [0]
  rhsNonContracting := [0]
  lhsBatch := []
  rhsBatch := []
  wf := dot_S100000x128_S256x128_S100000x256_1_1_0_0_n_n_wf
def dot_S100000x256_S128x256_S100000x128_1_1_0_0_n_n : DotDims S100000x256 S128x256 S100000x128 where
  lhsContracting := [1]
  rhsContracting := [1]
  lhsNonContracting := [0]
  rhsNonContracting := [0]
  lhsBatch := []
  rhsBatch := []
  wf := dot_S100000x256_S128x256_S100000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The layer both programs compute, stated on plain functions of a row number and a column number,
  on the extended reals.

  For a node p with features x p, the layer forms z p = W_fc (x p) + b_fc, rate p = softplus (W_rate (x p)) and
  gamma p = LayerNorm (W2 (softplus (W1 (x p) + b1)) + b2); then, from the aggregate agg p of the z rows over the
  node's edges, out p = LayerNorm ((rate p * agg p + gamma p) / (1 + rate p * deg p + eps) - z p). Every step acts on
  one row, except the aggregate, which is carried as a given array.
-/
import Idealize.ShloMosaic.PureOps.Ideal.Laws
import Idealize.ShloMosaic.Lib.ValueIdx

noncomputable section

open scoped BigOperators

namespace Cert.Spec

open Idealize.ShloMosaic Idealize.ShloMosaic.ValueIdx

/-- softplus: max (x, 0) + log (1 + exp (-|x|)), with |x| = max (x, -x). -/
def sp (x : EReal) : EReal := max x 0 + Ideal.log1p (Ideal.exp (-(max x (-x))))

/-- A row against a row. -/
def dot {K : Nat} (x w : Fin K → EReal) : EReal := ∑ k, x k * w k

/-- The literals of the two programs, the same words on both sides. -/
def c128 : EReal := Ideal.ofBits .f32 0x43000000#32
def lnEps : EReal := Ideal.ofBits .f32 0x3727C5AC#32
def cOne : EReal := Ideal.ofBits .f32 0x3F800000#32
def cEps : EReal := Ideal.ofBits .f32 0x38D1B717#32

/-- The mean of a row of 128 entries: its sum divided by the literal 128. -/
def mean {C : Nat} (v : Fin C → EReal) : EReal := Ideal.div (∑ k, v k) c128

/-- Layer normalisation of one row v with gain g and offset b, at column q. -/
def ln {C : Nat} (v g b : Fin C → EReal) (q : Fin C) : EReal :=
  (v q - mean v) * Ideal.rsqrt (mean (fun k => (v k - mean v) * (v k - mean v)) + lnEps) * g q + b q

/-- The combination of one entry before the last normalisation. -/
def val (rate agg gamma z deg : EReal) : EReal := Ideal.div (rate * agg + gamma) (cOne + rate * deg + cEps) - z

variable {N : Nat}

/-- z = x W_fc^T + b_fc. -/
def zF (x : Fin N → Fin 128 → EReal) (W : Fin 128 → Fin 128 → EReal) (b : Fin 128 → EReal) (p : Fin N) (q : Fin 128) : EReal :=
  dot (x p) (W q) + b q

/-- rate = softplus (x W_rate^T). -/
def rateF (x : Fin N → Fin 128 → EReal) (W : Fin 128 → Fin 128 → EReal) (p : Fin N) (q : Fin 128) : EReal :=
  sp (dot (x p) (W q))

/-- h = softplus (x W1^T + b1). -/
def hF (x : Fin N → Fin 128 → EReal) (W1 : Fin 256 → Fin 128 → EReal) (b1 : Fin 256 → EReal) (p : Fin N) (j : Fin 256) : EReal :=
  sp (dot (x p) (W1 j) + b1 j)

/-- gamma = LayerNorm (h W2^T + b2). -/
def gammaF (x : Fin N → Fin 128 → EReal) (W1 : Fin 256 → Fin 128 → EReal) (b1 : Fin 256 → EReal)
    (W2 : Fin 128 → Fin 256 → EReal) (b2 g b : Fin 128 → EReal) (p : Fin N) (q : Fin 128) : EReal :=
  ln (fun k => dot (hF x W1 b1 p) (W2 k) + b2 k) g b q

/-- out = LayerNorm ((rate * agg + gamma) / (1 + rate * deg + eps) - z). -/
def outF (rate agg gamma z : Fin N → Fin 128 → EReal) (deg : Fin N → EReal) (g b : Fin 128 → EReal) (p : Fin N) (q : Fin 128) : EReal :=
  ln (fun k => val (rate p k) (agg p k) (gamma p k) (z p k) (deg p)) g b q

/-- An array of rank two from a function of its two coordinates, and back. -/
def arr2 {a b : Nat} (f : Fin a → Fin b → EReal) : (⟨2, ![a, b]⟩ : Shape).Idx → EReal := fun i => f (i 0) (i 1)
def fn2 {a b : Nat} (A : (⟨2, ![a, b]⟩ : Shape).Idx → EReal) : Fin a → Fin b → EReal := fun p q => A (ix2 p q)

theorem arr2_apply {a b : Nat} (f : Fin a → Fin b → EReal) (p : Fin a) (q : Fin b) : arr2 f (ix2 p q) = f p q := rfl

theorem arr2_fn2 {a b : Nat} (A : (⟨2, ![a, b]⟩ : Shape).Idx → EReal) : arr2 (fn2 A) = A := by
  funext j
  obtain ⟨p, q, rfl⟩ : ∃ (p : Fin a) (q : Fin b), j = ix2 p q := ⟨j 0, j 1, eq_ix2 j⟩
  rfl

theorem fn2_arr2 {a b : Nat} (f : Fin a → Fin b → EReal) : fn2 (arr2 f) = f := rfl

/-- The kernel's spelling of softplus on one entry: the test x - 0 ≠ x - 0 never holds, and 0 - |x - 0| = -|x|. -/
theorem sp_kernel (x : EReal) :
    Scalar.select (FloatOps.cmpf (F := Ideal) (φ := .f32) .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32
              - max (x - Ideal.ofBits .f32 0x00000000#32) (-(x - Ideal.ofBits .f32 0x00000000#32)))))
      = sp x := by
  rw [Ideal.ofBits_zero_f32, sub_zero, zero_sub]
  have h : FloatOps.cmpf (F := Ideal) (φ := .f32) .one x x = 0 := by
    show Ideal.cmp .one x x = 0
    simp [Ideal.cmp]
  rw [h]
  rfl

/-- The host's spelling: the test is the same predicate here, and it negates |x - 0|. -/
theorem sp_host (x : EReal) :
    Scalar.select (FloatOps.cmpf (F := Ideal) (φ := .f32) .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      = sp x := by
  rw [Ideal.ofBits_zero_f32, sub_zero]
  have h : FloatOps.cmpf (F := Ideal) (φ := .f32) .une x x = 0 := by
    show Ideal.cmp .une x x = 0
    simp [Ideal.cmp]
  rw [h]
  rfl

end Cert.Spec

end
-- ==== Proof.LibDotRows.lean ====
/-
  A matrix product against a stored [N, K] matrix, read at an index, on the extended reals.

  The dimension numbers contract the left operand's axis 1 with the right operand's axis 1 (no batch axis): an M×K
  matrix L against an N×K matrix W, the result M×N. Entry (p, q) of the product into a zero accumulator, and of the
  host's `dot_general` with the same numbers, is the sum over k of L[p,k] · W[q,k]: row p of L against row q of W.
  Generic in the three extents.
-/
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

/-- The left operand's row coordinate is the result's row coordinate. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction's one coordinate. -/
theorem lhs1 (i : (⟨2, ![M, N]⟩ : Shape).Idx) (q : (DotDims.transposedRhs M K N).contr.Idx) :
    ((DotDims.transposedRhs M K N).lhsIdx i q 1).val
      = (q ⟨0, Nat.lt_of_lt_of_eq Nat.one_pos (Eq.symm (rfl : (DotDims.transposedRhs M K N).contr.rank = 1))⟩).val :=
  (DotDims.transposedRhs M K N).lhsIdx_val_of_single rfl i q

/-- The right operand's row coordinate is the result's column coordinate. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction's one coordinate. -/
theorem rhs1 (i : (⟨2, ![M, N]⟩ : Shape).Idx) (q : (DotDims.transposedRhs M K N).contr.Idx) :
    ((DotDims.transposedRhs M K N).rhsIdx i q 1).val
      = (q ⟨0, Nat.lt_of_lt_of_eq Nat.one_pos (Eq.symm (rfl : (DotDims.transposedRhs M K N).contr.rank = 1))⟩).val :=
  (DotDims.transposedRhs M K N).rhsIdx_val_of_single rfl i q

/-- The contraction's sum re-indexed by its one coordinate: row p of L against row q of W. -/
theorem sum_contr {φ₁ φ₂ : FTy} (L : FVec Ideal ⟨2, ![M, K]⟩ φ₁) (W : FVec Ideal ⟨2, ![N, K]⟩ φ₂) (p : Fin M) (q : Fin N) :
    (∑ k : (DotDims.transposedRhs M K N).contr.Idx,
        L ((DotDims.transposedRhs M K N).lhsIdx (ix2 p q) k) * W ((DotDims.transposedRhs M K N).rhsIdx (ix2 p q) k))
      = ∑ k : Fin K, L (ix2 p k) * W (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs0 _ _
      | ⟨1, _⟩ => exact (lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs0 _ _
      | ⟨1, _⟩ => exact (rhs1 _ _).trans hk)
  rw [el, er]

/-- The vector unit's product into the zero accumulator, at (p, q). -/
theorem matmul_zero_apply {φ₁ φ₂ : FTy} (prec : Option ContractPrecision) (L : FVec Ideal ⟨2, ![M, K]⟩ φ₁)
    (W : FVec Ideal ⟨2, ![N, K]⟩ φ₂) (p : Fin M) (q : Fin N) :
    FloatOps.matmul (DotDims.transposedRhs M K N) prec L W (constant ⟨2, ![M, N]⟩ .f32 0x00000000#32) (ix2 p q)
      = ∑ k : Fin K, L (ix2 p k) * W (ix2 q k) := by
  rw [Ideal.matmul_constant_zero_apply]
  exact sum_contr L W p q

/-- The host's product with the same dimension numbers, at (p, q). -/
theorem dotGeneral_apply {φ₁ φ₂ : FTy} (prec : Option ContractPrecision) (sched : HostSchedule) (L : FVec Ideal ⟨2, ![M, K]⟩ φ₁)
    (W : FVec Ideal ⟨2, ![N, K]⟩ φ₂) (p : Fin M) (q : Fin N) :
    FloatOps.dotGeneral (DotDims.transposedRhs M K N) prec sched L W (ix2 p q) = ∑ k : Fin K, L (ix2 p k) * W (ix2 q k) := by
  rw [Ideal.dotGeneral_apply]
  exact sum_contr L W p q

end Cert.DotRows

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Region0.lean ====
/-
  Region 0, the first output: what the dense stage leaves in the z array.

  The grid has 50 points; point t holds rows 2000 t … 2000 t + 1999 of x and the whole of every weight and bias row.
  The body's value for z at row r, column q of the block is the row x (2000 t + r) against row q of W_fc, plus the
  bias row's entry q. The 50 blocks tile the array, so the array ends holding z at every row.
-/
import proofs.«120170_j61400852463787_1_alg».proof.Proof.Gen.KernelIdeal.Frame
import proofs.«120170_j61400852463787_1_alg».proof.Proof.Spec
import proofs.«120170_j61400852463787_1_alg».proof.Proof.LibDotRows
import proofs.«120170_j61400852463787_1_alg».proof.Proof.LibRowBias
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows move with the point, the others stay at the origin. -/
theorem idx_rows : ∀ t : Fin cfg0.N, win0_0.index t (0 : Fin 2) = t.val ∧ win0_0.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

theorem idx_rest : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem N50 : cfg0.N = 50 := by decide +kernel

/-- The x block at point t is rows 2000 t … of x. -/
theorem xblk_apply (c : Dev nD) (t : Fin cfg0.N) (y : S2000x128.Idx) (k : S100000x128.Idx)
    (hk0 : (k 0).val = t.val * 2000 + (y 0).val) (hk1 : (k 1).val = (y 1).val) :
    (iblk0 V c 0 t : Vec Ideal S2000x128 .f32) y = (V c main_arg0 : S100000x128.Idx → EReal) k := by
  have hi := idx_rows t
  unfold iblk0
  rw [View.read_apply]
  show V c main_arg0 _ = V c main_arg0 _
  congr 1
  funext a
  apply Fin.ext
  match a with
  | ⟨0, _⟩ => show win0_0.index t 0 * 2000 + 1 * (y 0).val = (k 0).val; rw [hi.1, hk0]; omega
  | ⟨1, _⟩ => show win0_0.index t 1 * 128 + 1 * (y 1).val = (k 1).val; rw [hi.2.1, hk1]; omega

/-- The W_fc block is the whole array. -/
theorem wfc_blk (c : Dev nD) (t : Fin cfg0.N) :
    (iblk0 V c 1 t : Vec Ideal S128x128 .f32) = (V c main_arg3 : S128x128.Idx → EReal) := by
  have hi := idx_rest t
  funext y
  unfold iblk0
  rw [View.read_apply]
  show V c main_arg3 _ = V c main_arg3 _
  congr 1
  funext a
  apply Fin.ext
  match a with
  | ⟨0, _⟩ => show win0_1.index t 0 * 128 + 1 * (y 0).val = (y 0).val; rw [hi.1]; omega
  | ⟨1, _⟩ => show win0_1.index t 1 * 128 + 1 * (y 1).val = (y 1).val; rw [hi.2.1]; omega

/-- The b_fc row block is the whole row. -/
theorem bfc_blk (c : Dev nD) (t : Fin cfg0.N) :
    (iblk0 V c 2 t : Vec Ideal S1x128 .f32) = (V c main_v0 : S1x128.Idx → EReal) := by
  have hi := idx_rest t
  funext y
  unfold iblk0
  rw [View.read_apply]
  show V c main_v0 _ = V c main_v0 _
  congr 1
  funext a
  apply Fin.ext
  match a with
  | ⟨0, _⟩ => show win0_2.index t 0 * 1 + 1 * (y 0).val = (y 0).val; rw [hi.2.2.1]; omega
  | ⟨1, _⟩ => show win0_2.index t 1 * 128 + 1 * (y 1).val = (y 1).val; rw [hi.2.2.2]; omega

/-- The body's value for z, at row r and column q of the block. -/
theorem pay_z (x0 : Vec Ideal S2000x128 .f32) (x1 : Vec Ideal S128x128 .f32) (x2 : Vec Ideal S1x128 .f32) (r : Fin 2000) (q : Fin 128) :
    k0_pay2 x0 x1 x2 (ix2 r q) = zF (fn2 x0) (fn2 x1) (fun q => x2 (ix2 (0 : Fin 1) q)) r q := by
  unfold k0_pay2 k0_pay1
  dsimp only
  refine (congrArg₂ (· + ·)
    (Cert.DotRows.matmul_zero_apply (M := 2000) (K := 128) (N := 128) none (truncf .bf16 x0 bitsLt_bf16_f32) (truncf .bf16 x1 bitsLt_bf16_f32) r q)
    (Cert.RowBias.rows_apply (M := 2000) (shapeCast S1x128 x2 shapeCasts_S1x128_S1x128) broadcasts_S1x128_S2000x128 r q)).trans ?_
  rw [shapeCast_self]
  rfl

/-- z as one array, from the arrays the region finds. -/
def zG (c : Dev nD) : S100000x128.Idx → EReal :=
  arr2 (zF (fn2 (V c main_arg0 : S100000x128.Idx → EReal)) (fn2 (V c main_arg3 : S128x128.Idx → EReal))
    (fun q => (V c main_v0 : S1x128.Idx → EReal) (ix2 (0 : Fin 1) q)))

/-- Row r of the x block at point t is row 2000 t + r of x. -/
theorem xrow (c : Dev nD) (t : Fin cfg0.N) (r : Fin 2000) (h : t.val * 2000 + r.val < 100000) :
    fn2 (iblk0 V c 0 t : Vec Ideal S2000x128 .f32) r = fn2 (V c main_arg0 : S100000x128.Idx → EReal) ⟨t.val * 2000 + r.val, h⟩ :=
  funext fun k => xblk_apply V c t (ix2 r k) (ix2 ⟨t.val * 2000 + r.val, h⟩ k) rfl rfl

/-- Where entry (r, q) of an output block at point t sits in its array. -/
theorem emb10 (t : Fin cfg0.N) (r : Fin 2000) (q : Fin 128) (h : t.val * 2000 + r.val < 100000) :
    ((cfg0.win 10).blk t).view.emb (ix2 r q : S2000x128.Idx) = (ix2 ⟨t.val * 2000 + r.val, h⟩ q : S100000x128.Idx) := by
  have hi := idx_rows t
  funext a
  apply Fin.ext
  match a with
  | ⟨0, _⟩ => show win0_10.index t 0 * 2000 + 1 * r.val = t.val * 2000 + r.val; rw [hi.2.2.1]; omega
  | ⟨1, _⟩ => show win0_10.index t 1 * 128 + 1 * q.val = q.val; rw [hi.2.2.2.1]; omega

/-- What point t writes back for z is block t of the array function. -/
theorem flushed10_eq (c : Dev nD) (t : Fin cfg0.N) :
    (dat0 V c).flushed 10 t = ((cfg0.win 10).blk t).view.read (Elt Ideal) (zG V c) := by
  show (cfg0.win 10).cut (grid0.coords t) ((dat0 V c).after 10 t) = _
  rw [after0_10]
  unfold out0_10
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  have ht : t.val < 50 := lt_of_lt_of_eq t.isLt N50
  have hr := r.isLt
  have h : t.val * 2000 + r.val < 100000 := by omega
  refine (pay_z _ _ _ r q).trans ?_
  rw [View.read_apply, emb10 t r q h]
  unfold zG
  rw [arr2_apply]
  unfold zF
  rw [xrow V c t r h, wfc_blk, bfc_blk]
  exact (cast_eq _ _).symm

/-- An index of the z array is in point t's block iff its row is among the block's rows. -/
theorem mem_blk10 (t : Fin cfg0.N) (i : S100000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v5_0).slice (win0_10.rect t)).set ↔ _
  rw [View.set_slice_whole, Rect.mem_set_unit]
  exact Iff.rfl

/-- The 50 blocks tile the array: row p lies in the block of point p / 2000. -/
theorem cover10 (i : S100000x128.Idx) : ∃ t : Fin cfg0.N, (cfg0.win 10).flush t = true ∧ i ∈ ((cfg0.win 10).blk t).view.set := by
  have hi0 : (i 0).val < 100000 := (i 0).isLt
  have hi1 : (i 1).val < 128 := (i 1).isLt
  have hN : (i 0).val / 2000 < cfg0.N := by rw [N50]; omega
  refine ⟨⟨(i 0).val / 2000, hN⟩, flush0_10 _, ?_⟩
  rw [mem_blk10]
  have hi := idx_rows ⟨(i 0).val / 2000, hN⟩
  intro a
  match a with
  | ⟨0, _⟩ =>
    show win0_10.index ⟨(i 0).val / 2000, hN⟩ (0 : Fin 2) * 2000 ≤ (i 0).val ∧ (i 0).val < win0_10.index ⟨(i 0).val / 2000, hN⟩ (0 : Fin 2) * 2000 + 2000
    rw [hi.2.2.1]
    show (i 0).val / 2000 * 2000 ≤ (i 0).val ∧ (i 0).val < (i 0).val / 2000 * 2000 + 2000
    omega
  | ⟨1, _⟩ =>
    show win0_10.index ⟨(i 0).val / 2000, hN⟩ (1 : Fin 2) * 128 ≤ (i 1).val ∧ (i 1).val < win0_10.index ⟨(i 0).val / 2000, hN⟩ (1 : Fin 2) * 128 + 128
    rw [hi.2.2.2.1]
    omega

/-- The z array after the region. -/
theorem final10 (c : Dev nD) : (dat0 V c).arrAt 10 cfg0.N = zG V c :=
  (dat0 V c).arrAt_eq_of_cover 10 (zG V c) (fun t _ => flushed10_eq V c t) (cover10)

end Cert.KernelIdeal.Region0

end
-- ==== Proof.Region0Rate.lean ====
/-
  Region 0, the second output: what the dense stage leaves in the rate array.

  Point t of the grid holds rows 2000 t … 2000 t + 1999 of x and the whole of W_rate. The body's value for the rate at
  row r, column q of the block is softplus of the row x (2000 t + r) against row q of W_rate. The 50 blocks tile the
  array, so the array ends holding the rate at every row.
-/
import proofs.«120170_j61400852463787_1_alg».proof.Proof.Region0

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen Cert.Spec

variable (V : (c : Dev nD) → (b : Ref sig .tc) → Buf (Elt Ideal) ((c : Thread nD τ).loc b))

/-- The W_rate window stays at the origin over the whole grid. -/
theorem idx_wrate : ∀ t : Fin cfg0.N, win0_3.index t (0 : Fin 2) = 0 ∧ win0_3.index t (1 : Fin 2) = 0 :=
  (by decide +kernel : ∀ t : Fin grid0.N, _)

/-- The W_rate block is the whole array. -/
theorem wrate_blk (c : Dev nD) (t : Fin cfg0.N) :
    (iblk0 V c 3 t : Vec Ideal S128x128 .f32) = (V c main_arg5 : S128x128.Idx → EReal) := by
  have hi := idx_wrate t
  funext y
  unfold iblk0
  rw [View.read_apply]
  show V c main_arg5 _ = V c main_arg5 _
  congr 1
  funext a
  apply Fin.ext
  match a with
  | ⟨0, _⟩ => show win0_3.index t 0 * 128 + 1 * (y 0).val = (y 0).val; rw [hi.1]; omega
  | ⟨1, _⟩ => show win0_3.index t 1 * 128 + 1 * (y 1).val = (y 1).val; rw [hi.2]; omega

/-- The body's value for the rate, at row r and column q of the block: the product entry is the row against the row,
    and the pointwise tail is the kernel's spelling of softplus on that entry. -/
theorem pay_rate (x0 : Vec Ideal S2000x128 .f32) (x3 : Vec Ideal S128x128 .f32) (r : Fin 2000) (q : Fin 128) :
    k0_pay3 x0 x3 (ix2 r q) = rateF (fn2 x0) (fn2 x3) r q := by
  have hm := Cert.DotRows.matmul_zero_apply (M := 2000) (K := 128) (N := 128) none
      (truncf .bf16 x0 bitsLt_bf16_f32) (truncf .bf16 x3 bitsLt_bf16_f32) r q
  have hm' : _ = dot (fn2 x0 r) (fn2 x3 q) := hm
  unfold k0_pay3 k0_pay1 rateF
  dsimp only
  refine Eq.trans ?_ (congrArg sp hm')
  refine Eq.trans ?_ (sp_kernel _)
  rfl

/-- The rate as one array, from the arrays the region finds. -/
def rateG (c : Dev nD) : S100000x128.Idx → EReal :=
  arr2 (rateF (fn2 (V c main_arg0 : S100000x128.Idx → EReal)) (fn2 (V c main_arg5 : S128x128.Idx → EReal)))

/-- Where entry (r, q) of the rate block at point t sits in its array. -/
theorem emb11 (t : Fin cfg0.N) (r : Fin 2000) (q : Fin 128) (h : t.val * 2000 + r.val < 100000) :
    ((cfg0.win 11).blk t).view.emb (ix2 r q : S2000x128.Idx) = (ix2 ⟨t.val * 2000 + r.val, h⟩ q : S100000x128.Idx) := by
  have hi := idx_rows t
  funext a
  apply Fin.ext
  match a with
  | ⟨0, _⟩ => show win0_11.index t 0 * 2000 + 1 * r.val = t.val * 2000 + r.val; rw [hi.2.2.2.2.1]; omega
  | ⟨1, _⟩ => show win0_11.index t 1 * 128 + 1 * q.val = q.val; rw [hi.2.2.2.2.2.1]; omega

/-- What point t writes back for the rate is block t of the array function. -/
theorem flushed11_eq (c : Dev nD) (t : Fin cfg0.N) :
    (dat0 V c).flushed 11 t = ((cfg0.win 11).blk t).view.read (Elt Ideal) (rateG V c) := by
  show (cfg0.win 11).cut (grid0.coords t) ((dat0 V c).after 11 t) = _
  rw [after0_11]
  unfold out0_11
  rw [View.canon_unit_zero hz]
  simp only [View.ld_unit_zero (S := S2000x128) hz, View.ld_unit_zero (S := S128x128) hz]
  funext j
  obtain ⟨r, q, rfl⟩ : ∃ (r : Fin 2000) (q : Fin 128), j = ix2 r q := ⟨j 0, j 1, eq_ix2 j⟩
  have ht : t.val < 50 := lt_of_lt_of_eq t.isLt N50
  have hr := r.isLt
  have h : t.val * 2000 + r.val < 100000 := by omega
  refine (pay_rate _ _ r q).trans ?_
  rw [View.read_apply, emb11 t r q h]
  unfold rateG
  rw [arr2_apply]
  unfold rateF
  rw [xrow V c t r h, wrate_blk]
  exact (cast_eq _ _).symm

/-- An index of the rate array is in point t's block iff its row is among the block's rows. -/
theorem mem_blk11 (t : Fin cfg0.N) (i : S100000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v5_1).slice (win0_11.rect t)).set ↔ _
  rw [View.set_slice_whole, Rect.mem_set_unit]
  exact Iff.rfl

/-- The 50 blocks tile the array: row p lies in the block of point p / 2000. -/
theorem cover11 (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  have hN : (i 0).val / 2000 < cfg0.N := by rw [N50]; omega
  refine ⟨⟨(i 0).val / 2000, hN⟩, flush0_11 _, ?_⟩
  rw [mem_blk11]
  have hi := idx_rows ⟨(i 0).val / 2000, hN⟩
  intro a
  match a with
  | ⟨0, _⟩ =>
    show win0_11.index ⟨(i 0).val / 2000, hN⟩ (0 : Fin 2) * 2000 ≤ (i 0).val ∧ (i 0).val < win0_11.index ⟨(i 0).val / 2000, hN⟩ (0 : Fin 2) * 2000 + 2000
    rw [hi.2.2.2.2.1]
    show (i 0).val / 2000 * 2000 ≤ (i 0).val ∧ (i 0).val < (i 0).val / 2000 * 2000 + 2000
    omega
  | ⟨1, _⟩ =>
    show win0_11.index ⟨(i 0).val / 2000, hN⟩ (1 : Fin 2) * 128 ≤ (i 1).val ∧ (i 1).val < win0_11.index ⟨(i 0).val / 2000, hN⟩ (1 : Fin 2) * 128 + 128
    rw [hi.2.2.2.2.2.1]
    omega

/-- The rate array after the region. -/
theorem final11 (c : Dev nD) : (dat0 V c).arrAt 11 cfg0.N = rateG V c :=
  (dat0 V c).arrAt_eq_of_cover 11 (rateG V c) (fun t _ => flushed11_eq V c t) (cover11)

end Cert.KernelIdeal.Region0

end
-- ==== Proof.LibRows.lean ====
/-
  Arrays of n rows and c columns read row by row.

  A reduction along the second axis, read at row p, ranges over the columns k of that row: the source index over the
  reduced index (p) with the coordinate k inserted is (p, k). So a kernel's multi_reduction and the host's reduce
  over axis 1 are, at row p, the sum (the largest, the smallest) of the row's entries x (p, k), k : Fin c.
  A unit-stride slice that drops the first or the last column reads the row shifted or unshifted, and a concatenation
  of fifteen columns of shape [n, 1] along axis 1 reads, at (p, j), column j at (p, 0).
-/
import Idealize.ShloMosaic.Lib.ValueIdx
import Idealize.ShloMosaic.Lib.Pipeline.Value
import Idealize.ShloMosaic.PureOps.Ideal.Laws

noncomputable section

open scoped BigOperators

namespace Idealize.ShloMosaic.Rows

open Idealize.ShloMosaic Idealize.ShloMosaic.ValueIdx

variable {n c : ℕ} {φ : FTy}

/-- Over row p, the source index with column k inserted is (p, k). -/
theorem lift_row (h : (⟨2, ![n, c]⟩ : Shape).Reduces [1] ⟨1, ![n]⟩) (p : Fin n) (k : Fin c) :
    h.lift (ix1 p) k = ix2 p k := by
  funext a
  apply Fin.ext
  show h.liftVal (ix1 p) k.val a = _
  match a with
  | ⟨0, _⟩ => simp [Shape.Reduces.liftVal]
  | ⟨1, _⟩ => simp [Shape.Reduces.liftVal]

/-- A kernel's sum along the columns, at row p. -/
theorem mredAdd_row (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin c, src (ix2 p k) := by
  rw [Ideal.multiReduction_add_single]
  exact Finset.sum_congr rfl fun k _ => congrArg src (lift_row h p k)

/-- A kernel's maximum along the columns, at row p. -/
theorem mredMax_row (src : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin c)).fold max (Ideal.ofBits φ acc) (fun k => src (ix2 p k)) := by
  rw [Ideal.multiReduction_maximumf_single]
  have e : (src ∘ h.lift (ix1 p)) = fun k : Fin c => src (ix2 p k) := funext fun k => congrArg src (lift_row h p k)
  rw [e]
  rfl

/-- A kernel's minimum along the columns, at row p. -/
theorem mredMin_row (src : FVec Ideal ⟨2, ![n, c]⟩ φ) (acc : BitVec φ.bits)
    (h : (⟨2, ![n, c]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin c)).fold min (Ideal.ofBits φ acc) (fun k => src (ix2 p k)) := by
  rw [multiReduction_minimumf_eq_fold, h.fold_filter_drop_single]
  have e : (src ∘ h.lift (ix1 p)) = fun k : Fin c => src (ix2 p k) := funext fun k => congrArg src (lift_row h p k)
  rw [e]
  rfl

/-- The host's sum along the columns, at row p: the initial value plus the row's sum. -/
theorem hredAdd_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduceAdd x v h' hu (ix1 p) = v (Shape.Idx.first hu) + ∑ k : Fin c, x (ix2 p k) := by
  show Ideal.hostReduceAdd h' x (v (Shape.Idx.first hu)) (ix1 p) = _
  rw [Ideal.hostReduceAdd_single h' h]
  exact congrArg (v (Shape.Idx.first hu) + ·) (Finset.sum_congr rfl fun k _ => congrArg x (lift_row h p k))

/-- The host's maximum along the columns, at row p. -/
theorem hredMax_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.maximumf x v h' hu (ix1 p)
      = (Finset.univ : Finset (Fin c)).fold max (v (Shape.Idx.first hu)) (fun k => x (ix2 p k)) := by
  rw [Host.reduce_eq_fold_single FloatOps.maximumf x v h' h hu]
  have e : (x ∘ h.lift (ix1 p)) = fun k : Fin c => x (ix2 p k) := funext fun k => congrArg x (lift_row h p k)
  rw [e]
  rfl

/-- The host's minimum along the columns, at row p. -/
theorem hredMin_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.minimumf x v h' hu (ix1 p)
      = (Finset.univ : Finset (Fin c)).fold min (v (Shape.Idx.first hu)) (fun k => x (ix2 p k)) := by
  rw [Host.reduce_eq_fold_single FloatOps.minimumf x v h' h hu]
  have e : (x ∘ h.lift (ix1 p)) = fun k : Fin c => x (ix2 p k) := funext fun k => congrArg x (lift_row h p k)
  rw [e]
  rfl

variable {α : Type}

/-- The slice that drops the first column reads the row one to the right. -/
theorem slice_succ (x : (⟨2, ![n, c + 1]⟩ : Shape).Idx → α)
    (h : (⟨2, ![n, c + 1]⟩ : Shape).Slices ![0, 1] ⟨2, ![n, c]⟩) (p : Fin n) (k : Fin c) :
    extractStridedSlice ⟨2, ![n, c]⟩ ![0, 1] x h (ix2 p k) = x (ix2 p k.succ) :=
  extractStridedSlice_apply _ x h _ _ fun a => by
    match a with
    | ⟨0, _⟩ => show p.val = 0 + p.val; omega
    | ⟨1, _⟩ => show k.val + 1 = 1 + k.val; omega

/-- The slice that drops the last column reads the row in place. -/
theorem slice_castSucc (x : (⟨2, ![n, c + 1]⟩ : Shape).Idx → α)
    (h : (⟨2, ![n, c + 1]⟩ : Shape).Slices ![0, 0] ⟨2, ![n, c]⟩) (p : Fin n) (k : Fin c) :
    extractStridedSlice ⟨2, ![n, c]⟩ ![0, 0] x h (ix2 p k) = x (ix2 p k.castSucc) :=
  extractStridedSlice_apply _ x h _ _ fun a => by
    match a with
    | ⟨0, _⟩ => show p.val = 0 + p.val; omega
    | ⟨1, _⟩ => show k.val = 0 + k.val; omega

/-- Fifteen columns [n, 1] laid side by side: entry (p, j) is column j at (p, 0). -/
theorem concat15_apply (f : Fin 15 → ((⟨2, ![n, 1]⟩ : Shape).Idx → α))
    (h : Shape.Concatenates ((List.ofFn fun i : Fin 15 => (⟨⟨2, ![n, 1]⟩, f i⟩ : (s : Shape) × (s.Idx → α))).map (·.1))
      ⟨2, ![n, 15]⟩ 1)
    (p : Fin n) (j : Fin 15) :
    concatenate ⟨2, ![n, 15]⟩ 1 (List.ofFn fun i : Fin 15 => (⟨⟨2, ![n, 1]⟩, f i⟩ : (s : Shape) × (s.Idx → α))) h (ix2 p j)
      = f j (ix2 p (0 : Fin 1)) :=
  concatenate_ofFn_unit_apply (t := ⟨2, ![n, 15]⟩) (s₁ := ⟨2, ![n, 1]⟩) 1 f h rfl rfl (ix2 p j) j rfl (ix2 p (0 : Fin 1))
    (fun b hb => by
      match b with
      | ⟨0, _⟩ => rfl
      | ⟨1, _⟩ => exact absurd rfl hb)

end Idealize.ShloMosaic.Rows

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.Region0Gamma.lean ====
/-
  Region 0, the third output: what the dense stage leaves in the gamma array.

  At point t the body holds rows 2000 t … 2000 t + 1999 of x and the whole of W1, b1, W2, b2 and of the gain and offset
  rows. For row r of the block it forms the hidden row h = softplus (W1 x + b1) (256 entries), the row
  v = W2 h + b2 (128 entries), and normalises v: it subtracts the row's mean, multiplies by the reciprocal square root of
  the mean square of what is left plus a small constant, then by the gain row, and adds the offset row. That is gammaF at
  row 2000 t + r. The 50 blocks tile the array, so the array ends holding gamma at every row.
-/
import proofs.«120170_j61400852463787_1_alg».proof.Proof.Region0
import proofs.«120170_j61400852463787_1_alg».proof.Proof.LibRows
import proofs.«120170_j61400852463787_1_alg».proof.Proof.LibColumn

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen Cert.Spec

variable (V : (c : Dev nD) → (b : Ref sig .tc) → Buf (Elt Ideal) ((c : Thread nD τ).loc b))

/-! ## The weights' and rows' blocks -/

/-- The index maps of the six whole-array windows stay at the origin at every point of the grid. -/
theorem idx_gamma : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The W1 block is the whole array. -/
theorem w1_blk (c : Dev nD) (t : Fin cfg0.N) :
    (iblk0 V c 4 t : Vec Ideal S256x128 .f32) = (V c main_arg6 : S256x128.Idx → EReal) := by
  have hi := idx_gamma t
  funext y
  unfold iblk0
  rw [View.read_apply]
  show V c main_arg6 _ = V c main_arg6 _
  congr 1
  funext a
  apply Fin.ext
  match a with
  | ⟨0, _⟩ => show win0_4.index t 0 * 256 + 1 * (y 0).val = (y 0).val; rw [hi.1]; omega
  | ⟨1, _⟩ => show win0_4.index t 1 * 128 + 1 * (y 1).val = (y 1).val; rw [hi.2.1]; omega

/-- The b1 row block is the whole row. -/
theorem b1_blk (c : Dev nD) (t : Fin cfg0.N) :
    (iblk0 V c 5 t : Vec Ideal S1x256 .f32) = (V c main_v1 : S1x256.Idx → EReal) := by
  have hi := idx_gamma t
  funext y
  unfold iblk0
  rw [View.read_apply]
  show V c main_v1 _ = V c main_v1 _
  congr 1
  funext a
  apply Fin.ext
  match a with
  | ⟨0, _⟩ => show win0_5.index t 0 * 1 + 1 * (y 0).val = (y 0).val; rw [hi.2.2.1]; omega
  | ⟨1, _⟩ => show win0_5.index t 1 * 256 + 1 * (y 1).val = (y 1).val; rw [hi.2.2.2.1]; omega

/-- The W2 block is the whole array. -/
theorem w2_blk (c : Dev nD) (t : Fin cfg0.N) :
    (iblk0 V c 6 t : Vec Ideal S128x256 .f32) = (V c main_arg8 : S128x256.Idx → EReal) := by
  have hi := idx_gamma t
  funext y
  unfold iblk0
  rw [View.read_apply]
  show V c main_arg8 _ = V c main_arg8 _
  congr 1
  funext a
  apply Fin.ext
  match a with
  | ⟨0, _⟩ => show win0_6.index t 0 * 128 + 1 * (y 0).val = (y 0).val; rw [hi.2.2.2.2.1]; omega
  | ⟨1, _⟩ => show win0_6.index t 1 * 256 + 1 * (y 1).val = (y 1).val; rw [hi.2.2.2.2.2.1]; omega

/-- The b2 row block is the whole row. -/
theorem b2_blk (c : Dev nD) (t : Fin cfg0.N) :
    (iblk0 V c 7 t : Vec Ideal S1x128 .f32) = (V c main_v2 : S1x128.Idx → EReal) := by
  have hi := idx_gamma t
  funext y
  unfold iblk0
  rw [View.read_apply]
  show V c main_v2 _ = V c main_v2 _
  congr 1
  funext a
  apply Fin.ext
  match a with
  | ⟨0, _⟩ => show win0_7.index t 0 * 1 + 1 * (y 0).val = (y 0).val; rw [hi.2.2.2.2.2.2.1]; omega
  | ⟨1, _⟩ => show win0_7.index t 1 * 128 + 1 * (y 1).val = (y 1).val; rw [hi.2.2.2.2.2.2.2.1]; omega

/-- The gain row block is the whole row. -/
theorem g1_blk (c : Dev nD) (t : Fin cfg0.N) :
    (iblk0 V c 8 t : Vec Ideal S1x128 .f32) = (V c main_v3 : S1x128.Idx → EReal) := by
  have hi := idx_gamma t
  funext y
  unfold iblk0
  rw [View.read_apply]
  show V c main_v3 _ = V c main_v3 _
  congr 1
  funext a
  apply Fin.ext
  match a with
  | ⟨0, _⟩ => show win0_8.index t 0 * 1 + 1 * (y 0).val = (y 0).val; rw [hi.2.2.2.2.2.2.2.2.1]; omega
  | ⟨1, _⟩ => show win0_8.index t 1 * 128 + 1 * (y 1).val = (y 1).val; rw [hi.2.2.2.2.2.2.2.2.2.1]; omega

/-- The offset row block is the whole row. -/
theorem o1_blk (c : Dev nD) (t : Fin cfg0.N) :
    (iblk0 V c 9 t : Vec Ideal S1x128 .f32) = (V c main_v4 : S1x128.Idx → EReal) := by
  have hi := idx_gamma t
  funext y
  unfold iblk0
  rw [View.read_apply]
  show V c main_v4 _ = V c main_v4 _
  congr 1
  funext a
  apply Fin.ext
  match a with
  | ⟨0, _⟩ => show win0_9.index t 0 * 1 + 1 * (y 0).val = (y 0).val; rw [hi.2.2.2.2.2.2.2.2.2.2.1]; omega
  | ⟨1, _⟩ => show win0_9.index t 1 * 128 + 1 * (y 1).val = (y 1).val; rw [hi.2.2.2.2.2.2.2.2.2.2.2]; omega

/-! ## The body's value -/

/-- The first dense layer before its softplus, at row r and column j: row r of x against row j of W1, plus b1's entry j. -/
theorem pay_pre (x0 : Vec Ideal S2000x128 .f32) (x4 : Vec Ideal S256x128 .f32) (x5 : Vec Ideal S1x256 .f32) (r : Fin 2000) (j : Fin 256) :
    k0_pay4 x0 x4 x5 (ix2 r j) = dot (fn2 x0 r) (fn2 x4 j) + x5 (ix2 (0 : Fin 1) j) := by
  unfold k0_pay4 k0_pay1
  dsimp only
  refine (congrArg₂ (· + ·)
    (Cert.DotRows.matmul_zero_apply (M := 2000) (K := 128) (N := 256) none (truncf .bf16 x0 bitsLt_bf16_f32) (truncf .bf16 x4 bitsLt_bf16_f32) r j)
    (Cert.RowBias.rows_apply (M := 2000) (shapeCast S1x256 x5 shapeCasts_S1x256_S1x256) broadcasts_S1x256_S2000x256 r j)).trans ?_
  rw [shapeCast_self]
  rfl

/-- The softplus as the body joins it from four pieces a, c, b, d: where the test c holds, b; elsewhere a + log (1 + exp (0 - d)). -/
def spK (a : FVec Ideal S2000x256 .f32) (c : IVec S2000x256 1) (b d : FVec Ideal S2000x256 .f32) : FVec Ideal S2000x256 .f32 :=
  select c b (addf a (log1p (exp (subf (broadcast S2000x256 (Scalar.ofBits .f32 0x00000000#32 : Ideal .f32)) d))))

/-- With the pieces max (y, 0), the test y - 0 ≠ y - 0, y + 0 and |y - 0| of y, entry (r, j) is softplus y (r, j): the hidden layer. -/
theorem spK_apply (x0 : Vec Ideal S2000x128 .f32) (x4 : Vec Ideal S256x128 .f32) (x5 : Vec Ideal S1x256 .f32) (r : Fin 2000) (j : Fin 256) :
    spK (k0_pay5 x0 x4 x5) (k0_pay7 x0 x4 x5) (k0_pay8 x0 x4 x5) (k0_pay9 x0 x4 x5) (ix2 r j)
      = hF (fn2 x0) (fn2 x4) (fun j => x5 (ix2 (0 : Fin 1) j)) r j :=
  (sp_kernel (k0_pay4 x0 x4 x5 (ix2 r j))).trans (congrArg sp (pay_pre x0 x4 x5 r j))

/-- The second dense layer of a hidden array h: h against the stored W2, plus the b2 row down the rows. -/
def dense2K (h : FVec Ideal S2000x256 .f32) (x6 : Vec Ideal S128x256 .f32) (x7 : Vec Ideal S1x128 .f32) : FVec Ideal S2000x128 .f32 :=
  addf (matmul dot_S2000x256_S128x256_S2000x128_1_1_0_0_n_n none (truncf .bf16 h bitsLt_bf16_f32) (truncf .bf16 x6 bitsLt_bf16_f32)
      (constant S2000x128 .f32 0x00000000#32))
    (broadcastTo S2000x128 (shapeCast S1x128 x7 shapeCasts_S1x128_S1x128) broadcasts_S1x128_S2000x128)

/-- At row r and column k: row r of h against row k of W2, plus b2's entry k. -/
theorem dense2K_apply (h : FVec Ideal S2000x256 .f32) (x6 : Vec Ideal S128x256 .f32) (x7 : Vec Ideal S1x128 .f32) (r : Fin 2000) (k : Fin 128) :
    dense2K h x6 x7 (ix2 r k) = (∑ j : Fin 256, h (ix2 r j) * x6 (ix2 k j)) + x7 (ix2 (0 : Fin 1) k) := by
  unfold dense2K
  refine (congrArg₂ (· + ·)
    (Cert.DotRows.matmul_zero_apply (M := 2000) (K := 256) (N := 128) none (truncf .bf16 h bitsLt_bf16_f32) (truncf .bf16 x6 bitsLt_bf16_f32) r k)
    (Cert.RowBias.rows_apply (M := 2000) (shapeCast S1x128 x7 shapeCasts_S1x128_S1x128) broadcasts_S1x128_S2000x128 r k)).trans ?_
  rw [shapeCast_self]
  rfl

/-- The mean of each row of y as a column: the row sums, laid out as a column, divided by the literal 128. -/
def meanK (y : FVec Ideal S2000x128 .f32) : FVec Ideal S2000x1 .f32 :=
  divf (shapeCast S2000x1 (multiReduction .add [1] S2000 y 0x00000000#32 reduces_S2000x128_S2000 (.inl rfl) rfl) shapeCasts_S2000_S2000x1)
    (broadcast S2000x1 (Scalar.ofBits .f32 0x43000000#32 : Ideal .f32))

theorem meanK_apply (y : FVec Ideal S2000x128 .f32) (r : Fin 2000) :
    meanK y (ix2 r (0 : Fin 1)) = mean (fun k => y (ix2 r k)) := by
  unfold meanK
  refine (congrArg (fun s => Ideal.div s c128)
    ((Idealize.ShloMosaic.Column.shapeCast_a_a1_apply _ shapeCasts_S2000_S2000x1 r (0 : Fin 1)).trans
      (Idealize.ShloMosaic.Rows.mredAdd_row y 0x00000000#32 reduces_S2000x128_S2000 (.inl rfl) rfl r))).trans ?_
  rfl

/-- y with its row mean taken off every entry. -/
def cenK (y : FVec Ideal S2000x128 .f32) : FVec Ideal S2000x128 .f32 :=
  subf y (broadcastTo S2000x128 (meanK y) broadcasts_S2000x1_S2000x128)

theorem cenK_apply (y : FVec Ideal S2000x128 .f32) (r : Fin 2000) (k : Fin 128) :
    cenK y (ix2 r k) = y (ix2 r k) - mean (fun k => y (ix2 r k)) := by
  unfold cenK
  exact congrArg (fun s => y (ix2 r k) - s)
    ((Idealize.ShloMosaic.Column.broadcastTo_a1_ab_apply (by decide) (meanK y) broadcasts_S2000x1_S2000x128 r k).trans (meanK_apply y r))

/-- The reciprocal square root of each row's mean square after centring, plus the small constant, as a column. -/
def rstdK (y : FVec Ideal S2000x128 .f32) : FVec Ideal S2000x1 .f32 :=
  rsqrt (addf (meanK (mulf (cenK y) (cenK y))) (broadcast S2000x1 (Scalar.ofBits .f32 0x3727C5AC#32 : Ideal .f32)))

theorem rstdK_apply (y : FVec Ideal S2000x128 .f32) (r : Fin 2000) :
    rstdK y (ix2 r (0 : Fin 1))
      = Ideal.rsqrt (mean (fun k => (y (ix2 r k) - mean (fun k => y (ix2 r k))) * (y (ix2 r k) - mean (fun k => y (ix2 r k)))) + lnEps) := by
  unfold rstdK
  have e : (fun k : Fin 128 => mulf (cenK y) (cenK y) (ix2 r k))
      = fun k => (y (ix2 r k) - mean (fun k => y (ix2 r k))) * (y (ix2 r k) - mean (fun k => y (ix2 r k))) :=
    funext fun k => congrArg₂ (· * ·) (cenK_apply y r k) (cenK_apply y r k)
  exact (congrArg (fun s => Ideal.rsqrt (s + lnEps)) (meanK_apply (mulf (cenK y) (cenK y)) r)).trans
    (congrArg (fun f : Fin 128 → EReal => Ideal.rsqrt (mean f + lnEps)) e)

/-- The normalisation of every row of y with the gain row x8 and the offset row x9. -/
def lnK (y : FVec Ideal S2000x128 .f32) (x8 x9 : Vec Ideal S1x128 .f32) : FVec Ideal S2000x128 .f32 :=
  addf (mulf (mulf (cenK y) (broadcastTo S2000x128 (rstdK y) broadcasts_S2000x1_S2000x128))
      (broadcastTo S2000x128 (shapeCast S1x128 x8 shapeCasts_S1x128_S1x128) broadcasts_S1x128_S2000x128))
    (broadcastTo S2000x128 (shapeCast S1x128 x9 shapeCasts_S1x128_S1x128) broadcasts_S1x128_S2000x128)

theorem lnK_apply (y : FVec Ideal S2000x128 .f32) (x8 x9 : Vec Ideal S1x128 .f32) (r : Fin 2000) (q : Fin 128) :
    lnK y x8 x9 (ix2 r q)
      = ln (fun k => y (ix2 r k)) (fun q => x8 (ix2 (0 : Fin 1) q)) (fun q => x9 (ix2 (0 : Fin 1) q)) q := by
  unfold lnK
  have h1 := cenK_apply y r q
  have h2 := (Idealize.ShloMosaic.Column.broadcastTo_a1_ab_apply (by decide) (rstdK y) broadcasts_S2000x1_S2000x128 r q).trans (rstdK_apply y r)
  have h3 : broadcastTo S2000x128 (shapeCast S1x128 x8 shapeCasts_S1x128_S1x128) broadcasts_S1x128_S2000x128 (ix2 r q) = x8 (ix2 (0 : Fin 1) q) :=
    (Cert.RowBias.rows_apply (M := 2000) (shapeCast S1x128 x8 shapeCasts_S1x128_S1x128) broadcasts_S1x128_S2000x128 r q).trans (by rw [shapeCast_self])
  have h4 : broadcastTo S2000x128 (shapeCast S1x128 x9 shapeCasts_S1x128_S1x128) broadcasts_S1x128_S2000x128 (ix2 r q) = x9 (ix2 (0 : Fin 1) q) :=
    (Cert.RowBias.rows_apply (M := 2000) (shapeCast S1x128 x9 shapeCasts_S1x128_S1x128) broadcasts_S1x128_S2000x128 r q).trans (by rw [shapeCast_self])
  exact congrArg₂ (· + ·) (congrArg₂ (· * ·) (congrArg₂ (· * ·) h1 h2) h3) h4

/-- The body's value for gamma is the normalisation of the second dense layer of the joined softplus. -/
theorem pay10_eq (a : FVec Ideal S2000x256 .f32) (c : IVec S2000x256 1) (b d : FVec Ideal S2000x256 .f32)
    (x6 : Vec Ideal S128x256 .f32) (x7 x8 x9 : Vec Ideal S1x128 .f32) :
    k0_pay10 a c b d x6 x7 x8 x9 = lnK (dense2K (spK a c b d) x6 x7) x8 x9 := rfl

/-- The body's value for gamma, at row r and column q of the block. -/
theorem pay_gamma (x0 : Vec Ideal S2000x128 .f32) (x4 : Vec Ideal S256x128 .f32) (x5 : Vec Ideal S1x256 .f32) (x6 : Vec Ideal S128x256 .f32)
    (x7 x8 x9 : Vec Ideal S1x128 .f32) (r : Fin 2000) (q : Fin 128) :
    k0_pay10 (k0_pay5 x0 x4 x5) (k0_pay7 x0 x4 x5) (k0_pay8 x0 x4 x5) (k0_pay9 x0 x4 x5) x6 x7 x8 x9 (ix2 r q)
      = gammaF (fn2 x0) (fn2 x4) (fun j => x5 (ix2 (0 : Fin 1) j)) (fn2 x6) (fun q => x7 (ix2 (0 : Fin 1) q))
          (fun q => x8 (ix2 (0 : Fin 1) q)) (fun q => x9 (ix2 (0 : Fin 1) q)) r q := by
  rw [pay10_eq]
  refine (lnK_apply _ _ _ r q).trans ?_
  unfold gammaF
  refine congrArg (fun v : Fin 128 → EReal => ln v (fun q => x8 (ix2 (0 : Fin 1) q)) (fun q => x9 (ix2 (0 : Fin 1) q)) q) (funext fun k => ?_)
  refine (dense2K_apply _ _ _ r k).trans ?_
  unfold dot
  refine congrArg (· + x7 (ix2 (0 : Fin 1) k)) (Finset.sum_congr rfl fun j _ => ?_)
  exact congrArg (· * x6 (ix2 k j)) (spK_apply x0 x4 x5 r j)

/-! ## The array after the region -/

/-- gammaF reads x only through the row it is asked for. -/
theorem gammaF_row {N N' : Nat} (x : Fin N → Fin 128 → EReal) (x' : Fin N' → Fin 128 → EReal) (W1 : Fin 256 → Fin 128 → EReal)
    (b1 : Fin 256 → EReal) (W2 : Fin 128 → Fin 256 → EReal) (b2 g b : Fin 128 → EReal) (p : Fin N) (p' : Fin N')
    (h : x p = x' p') (q : Fin 128) : gammaF x W1 b1 W2 b2 g b p q = gammaF x' W1 b1 W2 b2 g b p' q := by
  unfold gammaF hF
  rw [h]

/-- gamma as one array, from the arrays the region finds. -/
def gammaG (c : Dev nD) : S100000x128.Idx → EReal :=
  arr2 (gammaF (fn2 (V c main_arg0 : S100000x128.Idx → EReal)) (fn2 (V c main_arg6 : S256x128.Idx → EReal))
    (fun j => (V c main_v1 : S1x256.Idx → EReal) (ix2 (0 : Fin 1) j)) (fn2 (V c main_arg8 : S128x256.Idx → EReal))
    (fun q => (V c main_v2 : S1x128.Idx → EReal) (ix2 (0 : Fin 1) q))
    (fun q => (V c main_v3 : S1x128.Idx → EReal) (ix2 (0 : Fin 1) q))
    (fun q => (V c main_v4 : S1x128.Idx → EReal) (ix2 (0 : Fin 1) q)))

/-- Where entry (r, q) of the gamma block at point t sits in its array. -/
theorem emb12 (t : Fin cfg0.N) (r : Fin 2000) (q : Fin 128) (h : t.val * 2000 + r.val < 100000) :
    ((cfg0.win 12).blk t).view.emb (ix2 r q : S2000x128.Idx) = (ix2 ⟨t.val * 2000 + r.val, h⟩ q : S100000x128.Idx) := by
  have hi := idx_rows t
  funext a
  apply Fin.ext
  match a with
  | ⟨0, _⟩ => show win0_12.index t 0 * 2000 + 1 * r.val = t.val * 2000 + r.val; rw [hi.2.2.2.2.2.2.1]; omega
  | ⟨1, _⟩ => show win0_12.index t 1 * 128 + 1 * q.val = q.val; rw [hi.2.2.2.2.2.2.2]; omega

/-- What point t writes back for gamma is block t of the array function. -/
theorem flushed12_eq (c : Dev nD) (t : Fin cfg0.N) :
    (dat0 V c).flushed 12 t = ((cfg0.win 12).blk t).view.read (Elt Ideal) (gammaG V c) := by
  show (cfg0.win 12).cut (grid0.coords t) ((dat0 V c).after 12 t) = _
  rw [after0_12]
  unfold out0_12
  rw [View.canon_unit_zero hz]
  simp only [View.ld_unit_zero (S := S2000x128) hz, View.ld_unit_zero (S := S256x128) hz, View.ld_unit_zero (S := S1x256) hz,
    View.ld_unit_zero (S := S128x256) hz, View.ld_unit_zero (S := S1x128) hz]
  funext j
  obtain ⟨r, q, rfl⟩ : ∃ (r : Fin 2000) (q : Fin 128), j = ix2 r q := ⟨j 0, j 1, eq_ix2 j⟩
  have ht : t.val < 50 := lt_of_lt_of_eq t.isLt N50
  have hr := r.isLt
  have h : t.val * 2000 + r.val < 100000 := by omega
  refine (pay_gamma _ _ _ _ _ _ _ r q).trans ?_
  rw [View.read_apply, emb12 t r q h]
  unfold gammaG
  rw [arr2_apply, w1_blk, b1_blk, w2_blk, b2_blk, g1_blk, o1_blk]
  refine (gammaF_row _ _ _ _ _ _ _ _ r ⟨t.val * 2000 + r.val, h⟩ (xrow V c t r h) q).trans ?_
  exact (cast_eq _ _).symm

/-- An index of the gamma array is in point t's block iff its row is among the block's rows. -/
theorem mem_blk12 (t : Fin cfg0.N) (i : S100000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v5_2).slice (win0_12.rect t)).set ↔ _
  rw [View.set_slice_whole, Rect.mem_set_unit]
  exact Iff.rfl

/-- The 50 blocks tile the array: row p lies in the block of point p / 2000. -/
theorem cover12 (i : S100000x128.Idx) : ∃ t : Fin cfg0.N, (cfg0.win 12).flush t = true ∧ i ∈ ((cfg0.win 12).blk t).view.set := by
  have hi0 : (i 0).val < 100000 := (i 0).isLt
  have hi1 : (i 1).val < 128 := (i 1).isLt
  have hN : (i 0).val / 2000 < cfg0.N := by rw [N50]; omega
  refine ⟨⟨(i 0).val / 2000, hN⟩, flush0_12 _, ?_⟩
  rw [mem_blk12]
  have hi := idx_rows ⟨(i 0).val / 2000, hN⟩
  intro a
  match a with
  | ⟨0, _⟩ =>
    show win0_12.index ⟨(i 0).val / 2000, hN⟩ (0 : Fin 2) * 2000 ≤ (i 0).val ∧ (i 0).val < win0_12.index ⟨(i 0).val / 2000, hN⟩ (0 : Fin 2) * 2000 + 2000
    rw [hi.2.2.2.2.2.2.1]
    show (i 0).val / 2000 * 2000 ≤ (i 0).val ∧ (i 0).val < (i 0).val / 2000 * 2000 + 2000
    omega
  | ⟨1, _⟩ =>
    show win0_12.index ⟨(i 0).val / 2000, hN⟩ (1 : Fin 2) * 128 ≤ (i 1).val ∧ (i 1).val < win0_12.index ⟨(i 0).val / 2000, hN⟩ (1 : Fin 2) * 128 + 128
    rw [hi.2.2.2.2.2.2.2]
    omega

/-- The gamma array after the region. -/
theorem final12 (c : Dev nD) : (dat0 V c).arrAt 12 cfg0.N = gammaG V c :=
  (dat0 V c).arrAt_eq_of_cover 12 (gammaG V c) (fun t _ => flushed12_eq V c t) (cover12)

end Cert.KernelIdeal.Region0

end
-- ==== Proof.Region1.lean ====
/-
  Region 1, its one output: what the second stage leaves in the output array.

  The grid has 50 points; point t holds rows 2000 t … 2000 t + 1999 of the rate, the aggregate, gamma and z, the same
  rows of the degree column, and the whole of the gain row and of the offset row. At row r, column k of the block the
  body forms the combination (rate * agg + gamma) / (1 + rate * deg + eps) - z; it then takes the row's mean (the sum
  over the 128 columns divided by the literal 128), the mean of the squared centred row, and writes
  centred * rsqrt (variance + eps') * gain + offset. That is the layer normalisation of the combined row, so the 50
  blocks, which tile the array, leave the layer's output at every row.
-/
import proofs.«120170_j61400852463787_1_alg».proof.Proof.Gen.KernelIdeal.Frame
import proofs.«120170_j61400852463787_1_alg».proof.Proof.Spec
import proofs.«120170_j61400852463787_1_alg».proof.Proof.LibRows
import proofs.«120170_j61400852463787_1_alg».proof.Proof.LibRowBias
import proofs.«120170_j61400852463787_1_alg».proof.Proof.LibColumn
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-! ## The body's value at an index -/

/-- The combination at row r, column k of the block: the degree column is read at (r, 0). -/
theorem comb_apply (x0 x1 x2 x3 : Vec Ideal S2000x128 .f32) (x4 : Vec Ideal S2000x1 .f32) (r : Fin 2000) (k : Fin 128) :
    k1_pay2 x0 x1 x2 x3 x4 (ix2 r k)
      = val (x0 (ix2 r k)) (x1 (ix2 r k)) (x2 (ix2 r k)) (x3 (ix2 r k)) (x4 (ix2 r (0 : Fin 1))) := by
  unfold k1_pay2
  rw [shapeCast_self, shapeCast_self, shapeCast_self, shapeCast_self, shapeCast_self]
  show Ideal.div (x0 (ix2 r k) * x1 (ix2 r k) + x2 (ix2 r k))
      (cOne + x0 (ix2 r k) * broadcastTo S2000x128 x4 broadcasts_S2000x1_S2000x128 (ix2 r k) + cEps) - x3 (ix2 r k) = _
  rw [Column.broadcastTo_a1_ab_apply (by decide) x4 broadcasts_S2000x1_S2000x128 r k]
  rfl

/-- The body's mean of a row: the sum over the 128 columns, laid out as a column, divided by the literal 128. -/
theorem rowMean_apply (w : FVec Ideal S2000x128 .f32) (r : Fin 2000) (u : Fin 1) :
    divf (shapeCast S2000x1 (multiReduction .add [1] S2000 w 0x00000000#32 reduces_S2000x128_S2000 (.inl rfl) rfl) shapeCasts_S2000_S2000x1)
        (broadcast S2000x1 (Scalar.ofBits .f32 0x43000000#32 : Ideal .f32)) (ix2 r u)
      = mean (fun k : Fin 128 => w (ix2 r k)) := by
  show Ideal.div (shapeCast S2000x1 (multiReduction .add [1] S2000 w 0x00000000#32 reduces_S2000x128_S2000 (.inl rfl) rfl) shapeCasts_S2000_S2000x1 (ix2 r u)) c128 = _
  rw [Column.shapeCast_a_a1_apply]
  exact congrArg (fun s => Ideal.div s c128) (Rows.mredAdd_row w 0x00000000#32 reduces_S2000x128_S2000 (.inl rfl) rfl r)

/-- The row mean of the combination, at (r, u). -/
theorem pay5_apply (x0 x1 x2 x3 : Vec Ideal S2000x128 .f32) (x4 : Vec Ideal S2000x1 .f32) (r : Fin 2000) (u : Fin 1) :
    k1_pay5 x0 x1 x2 x3 x4 (ix2 r u) = mean (fun k : Fin 128 => k1_pay2 x0 x1 x2 x3 x4 (ix2 r k)) := by
  unfold k1_pay5
  exact rowMean_apply (k1_pay2 x0 x1 x2 x3 x4) r u

/-- The centred row at (r, k): the combination less its row's mean. -/
theorem pay7_apply (x0 x1 x2 x3 : Vec Ideal S2000x128 .f32) (x4 : Vec Ideal S2000x1 .f32) (r : Fin 2000) (k : Fin 128) :
    k1_pay7 x0 x1 x2 x3 x4 (ix2 r k)
      = k1_pay2 x0 x1 x2 x3 x4 (ix2 r k) - mean (fun k : Fin 128 => k1_pay2 x0 x1 x2 x3 x4 (ix2 r k)) := by
  unfold k1_pay7
  show k1_pay2 x0 x1 x2 x3 x4 (ix2 r k) - broadcastTo S2000x128 (k1_pay5 x0 x1 x2 x3 x4) broadcasts_S2000x1_S2000x128 (ix2 r k) = _
  rw [Column.broadcastTo_a1_ab_apply (by decide) (k1_pay5 x0 x1 x2 x3 x4) broadcasts_S2000x1_S2000x128 r k, pay5_apply]

/-- The row variance at (r, u): the mean of the squared centred row. -/
theorem pay6_apply (x0 x1 x2 x3 : Vec Ideal S2000x128 .f32) (x4 : Vec Ideal S2000x1 .f32) (r : Fin 2000) (u : Fin 1) :
    k1_pay6 x0 x1 x2 x3 x4 (ix2 r u)
      = mean (fun k : Fin 128 =>
          (k1_pay2 x0 x1 x2 x3 x4 (ix2 r k) - mean (fun k : Fin 128 => k1_pay2 x0 x1 x2 x3 x4 (ix2 r k)))
            * (k1_pay2 x0 x1 x2 x3 x4 (ix2 r k) - mean (fun k : Fin 128 => k1_pay2 x0 x1 x2 x3 x4 (ix2 r k)))) := by
  have e : ∀ k : Fin 128, k1_pay7 x0 x1 x2 x3 x4 (ix2 r k) * k1_pay7 x0 x1 x2 x3 x4 (ix2 r k)
      = (k1_pay2 x0 x1 x2 x3 x4 (ix2 r k) - mean (fun k : Fin 128 => k1_pay2 x0 x1 x2 x3 x4 (ix2 r k)))
        * (k1_pay2 x0 x1 x2 x3 x4 (ix2 r k) - mean (fun k : Fin 128 => k1_pay2 x0 x1 x2 x3 x4 (ix2 r k))) :=
    fun k => by rw [pay7_apply]
  refine Eq.trans ?_ (congrArg mean (funext e))
  unfold k1_pay6 k1_pay7
  exact rowMean_apply _ r u

/-- The last step at (r, q): centred * rsqrt (variance + eps') * gain + offset, the columns read at (r, 0) and the
    rows at (0, q). -/
theorem pay1_apply (v21 v23 : FVec Ideal S1x128 .f32) (v34 : FVec Ideal S2000x1 .f32) (v36 : FVec Ideal S2000x128 .f32)
    (v37 : FVec Ideal S2000x1 .f32) (r : Fin 2000) (q : Fin 128) :
    k1_pay1 v21 v23 v34 v36 v37 (ix2 r q)
      = v36 (ix2 r q) * Ideal.rsqrt (v34 (ix2 r (0 : Fin 1)) + v37 (ix2 r (0 : Fin 1))) * v21 (ix2 (0 : Fin 1) q)
        + v23 (ix2 (0 : Fin 1) q) := by
  unfold k1_pay1
  show v36 (ix2 r q) * broadcastTo S2000x128 (rsqrt (addf v34 v37)) broadcasts_S2000x1_S2000x128 (ix2 r q)
        * broadcastTo S2000x128 v21 broadcasts_S1x128_S2000x128 (ix2 r q)
      + broadcastTo S2000x128 v23 broadcasts_S1x128_S2000x128 (ix2 r q) = _
  rw [Column.broadcastTo_a1_ab_apply (by decide) (rsqrt (addf v34 v37)) broadcasts_S2000x1_S2000x128 r q,
    Cert.RowBias.rows_apply (M := 2000) v21 broadcasts_S1x128_S2000x128 r q,
    Cert.RowBias.rows_apply (M := 2000) v23 broadcasts_S1x128_S2000x128 r q]
  rfl

/-- The body's value for the output, at row r and column q of the block. -/
theorem pay_out (x0 x1 x2 x3 : Vec Ideal S2000x128 .f32) (x4 : Vec Ideal S2000x1 .f32) (x5 x6 : Vec Ideal S1x128 .f32)
    (r : Fin 2000) (q : Fin 128) :
    k1_pay1 (k1_pay3 x5) (k1_pay4 x6) (k1_pay6 x0 x1 x2 x3 x4) (k1_pay7 x0 x1 x2 x3 x4) (k1_pay8 (F := Ideal)) (ix2 r q)
      = outF (fn2 x0) (fn2 x1) (fn2 x2) (fn2 x3) (fun p => x4 (ix2 p (0 : Fin 1))) (fun q => x5 (ix2 (0 : Fin 1) q))
          (fun q => x6 (ix2 (0 : Fin 1) q)) r q := by
  have e3 : k1_pay3 x5 = x5 := by unfold k1_pay3; exact shapeCast_self _ _
  have e4 : k1_pay4 x6 = x6 := by unfold k1_pay4; exact shapeCast_self _ _
  have e8 : k1_pay8 (F := Ideal) (ix2 r (0 : Fin 1)) = lnEps := rfl
  rw [pay1_apply, pay7_apply, pay6_apply, e3, e4, e8]
  simp only [comb_apply]
  rfl

/-! ## The windows' blocks -/

/-- The index maps over the grid: the row windows move with the point along the rows and stay at the origin along the
    columns. -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_7.index t (0 : Fin 2) = t.val ∧ win1_7.index t (1 : Fin 2) = 0 :=
  (by decide +kernel : ∀ t : Fin grid1.N, _)

/-- The gain and offset windows stay at the origin. -/
theorem idx_rest : ∀ t : Fin cfg1.N, win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem N50 : cfg1.N = 50 := by decide +kernel

/-- The rate block at point t is rows 2000 t … of the rate. -/
theorem blk0_apply (c : Dev nD) (t : Fin cfg1.N) (y : S2000x128.Idx) (k : S100000x128.Idx)
    (hk0 : (k 0).val = t.val * 2000 + (y 0).val) (hk1 : (k 1).val = (y 1).val) :
    (iblk1 V c 0 t : Vec Ideal S2000x128 .f32) y = (V c main_v5_1 : S100000x128.Idx → EReal) k := by
  have hi := idx_rows t
  unfold iblk1
  rw [View.read_apply]
  show V c main_v5_1 _ = V c main_v5_1 _
  congr 1
  funext a
  apply Fin.ext
  match a with
  | ⟨0, _⟩ => show win1_0.index t 0 * 2000 + 1 * (y 0).val = (k 0).val; rw [hi.1, hk0]; omega
  | ⟨1, _⟩ => show win1_0.index t 1 * 128 + 1 * (y 1).val = (k 1).val; rw [hi.2.1, hk1]; omega

/-- The aggregate block at point t is rows 2000 t … of the aggregate. -/
theorem blk1_apply (c : Dev nD) (t : Fin cfg1.N) (y : S2000x128.Idx) (k : S100000x128.Idx)
    (hk0 : (k 0).val = t.val * 2000 + (y 0).val) (hk1 : (k 1).val = (y 1).val) :
    (iblk1 V c 1 t : Vec Ideal S2000x128 .f32) y = (V c main_v27 : S100000x128.Idx → EReal) k := by
  have hi := idx_rows t
  unfold iblk1
  rw [View.read_apply]
  show V c main_v27 _ = V c main_v27 _
  congr 1
  funext a
  apply Fin.ext
  match a with
  | ⟨0, _⟩ => show win1_1.index t 0 * 2000 + 1 * (y 0).val = (k 0).val; rw [hi.2.2.1, hk0]; omega
  | ⟨1, _⟩ => show win1_1.index t 1 * 128 + 1 * (y 1).val = (k 1).val; rw [hi.2.2.2.1, hk1]; omega

/-- The gamma block at point t is rows 2000 t … of gamma. -/
theorem blk2_apply (c : Dev nD) (t : Fin cfg1.N) (y : S2000x128.Idx) (k : S100000x128.Idx)
    (hk0 : (k 0).val = t.val * 2000 + (y 0).val) (hk1 : (k 1).val = (y 1).val) :
    (iblk1 V c 2 t : Vec Ideal S2000x128 .f32) y = (V c main_v5_2 : S100000x128.Idx → EReal) k := by
  have hi := idx_rows t
  unfold iblk1
  rw [View.read_apply]
  show V c main_v5_2 _ = V c main_v5_2 _
  congr 1
  funext a
  apply Fin.ext
  match a with
  | ⟨0, _⟩ => show win1_2.index t 0 * 2000 + 1 * (y 0).val = (k 0).val; rw [hi.2.2.2.2.1, hk0]; omega
  | ⟨1, _⟩ => show win1_2.index t 1 * 128 + 1 * (y 1).val = (k 1).val; rw [hi.2.2.2.2.2.1, hk1]; omega

/-- The z block at point t is rows 2000 t … of z. -/
theorem blk3_apply (c : Dev nD) (t : Fin cfg1.N) (y : S2000x128.Idx) (k : S100000x128.Idx)
    (hk0 : (k 0).val = t.val * 2000 + (y 0).val) (hk1 : (k 1).val = (y 1).val) :
    (iblk1 V c 3 t : Vec Ideal S2000x128 .f32) y = (V c main_v5_0 : S100000x128.Idx → EReal) k := by
  have hi := idx_rows t
  unfold iblk1
  rw [View.read_apply]
  show V c main_v5_0 _ = V c main_v5_0 _
  congr 1
  funext a
  apply Fin.ext
  match a with
  | ⟨0, _⟩ => show win1_3.index t 0 * 2000 + 1 * (y 0).val = (k 0).val; rw [hi.2.2.2.2.2.2.1, hk0]; omega
  | ⟨1, _⟩ => show win1_3.index t 1 * 128 + 1 * (y 1).val = (k 1).val; rw [hi.2.2.2.2.2.2.2.1, hk1]; omega

/-- The degree block at point t is rows 2000 t … of the degree column. -/
theorem blk4_apply (c : Dev nD) (t : Fin cfg1.N) (y : S2000x1.Idx) (k : S100000x1.Idx)
    (hk0 : (k 0).val = t.val * 2000 + (y 0).val) (hk1 : (k 1).val = (y 1).val) :
    (iblk1 V c 4 t : Vec Ideal S2000x1 .f32) y = (V c main_v28 : S100000x1.Idx → EReal) k := by
  have hi := idx_rows t
  unfold iblk1
  rw [View.read_apply]
  show V c main_v28 _ = V c main_v28 _
  congr 1
  funext a
  apply Fin.ext
  match a with
  | ⟨0, _⟩ => show win1_4.index t 0 * 2000 + 1 * (y 0).val = (k 0).val; rw [hi.2.2.2.2.2.2.2.2.1, hk0]; omega
  | ⟨1, _⟩ => show win1_4.index t 1 * 1 + 1 * (y 1).val = (k 1).val; rw [hi.2.2.2.2.2.2.2.2.2.1, hk1]; omega

/-- The gain block is the whole row. -/
theorem blk5 (c : Dev nD) (t : Fin cfg1.N) :
    (iblk1 V c 5 t : Vec Ideal S1x128 .f32) = (V c main_v29 : S1x128.Idx → EReal) := by
  have hi := idx_rest t
  funext y
  unfold iblk1
  rw [View.read_apply]
  show V c main_v29 _ = V c main_v29 _
  congr 1
  funext a
  apply Fin.ext
  match a with
  | ⟨0, _⟩ => show win1_5.index t 0 * 1 + 1 * (y 0).val = (y 0).val; rw [hi.1]; omega
  | ⟨1, _⟩ => show win1_5.index t 1 * 128 + 1 * (y 1).val = (y 1).val; rw [hi.2.1]; omega

/-- The offset block is the whole row. -/
theorem blk6 (c : Dev nD) (t : Fin cfg1.N) :
    (iblk1 V c 6 t : Vec Ideal S1x128 .f32) = (V c main_v30 : S1x128.Idx → EReal) := by
  have hi := idx_rest t
  funext y
  unfold iblk1
  rw [View.read_apply]
  show V c main_v30 _ = V c main_v30 _
  congr 1
  funext a
  apply Fin.ext
  match a with
  | ⟨0, _⟩ => show win1_6.index t 0 * 1 + 1 * (y 0).val = (y 0).val; rw [hi.2.2.1]; omega
  | ⟨1, _⟩ => show win1_6.index t 1 * 128 + 1 * (y 1).val = (y 1).val; rw [hi.2.2.2]; omega

/-! ## The output array -/

/-- The layer's output depends, at row p, only on row p of each array and on entry p of the degree. -/
theorem outF_row {N M : Nat} (rate agg gamma z : Fin N → Fin 128 → EReal) (deg : Fin N → EReal)
    (rate' agg' gamma' z' : Fin M → Fin 128 → EReal) (deg' : Fin M → EReal) (g b : Fin 128 → EReal)
    (p : Fin N) (p' : Fin M) (q : Fin 128)
    (h0 : rate p = rate' p') (h1 : agg p = agg' p') (h2 : gamma p = gamma' p') (h3 : z p = z' p') (h4 : deg p = deg' p') :
    outF rate agg gamma z deg g b p q = outF rate' agg' gamma' z' deg' g b p' q := by
  unfold outF
  rw [h0, h1, h2, h3, h4]

/-- The output as one array, from the arrays the region finds. -/
def outG (c : Dev nD) : S100000x128.Idx → EReal :=
  arr2 (outF (fn2 (V c main_v5_1 : S100000x128.Idx → EReal)) (fn2 (V c main_v27 : S100000x128.Idx → EReal))
    (fn2 (V c main_v5_2 : S100000x128.Idx → EReal)) (fn2 (V c main_v5_0 : S100000x128.Idx → EReal))
    (fun p => (V c main_v28 : S100000x1.Idx → EReal) (ix2 p (0 : Fin 1)))
    (fun q => (V c main_v29 : S1x128.Idx → EReal) (ix2 (0 : Fin 1) q))
    (fun q => (V c main_v30 : S1x128.Idx → EReal) (ix2 (0 : Fin 1) q)))

/-- Where entry (r, q) of an output block at point t sits in its array. -/
theorem emb7 (t : Fin cfg1.N) (r : Fin 2000) (q : Fin 128) (h : t.val * 2000 + r.val < 100000) :
    ((cfg1.win 7).blk t).view.emb (ix2 r q : S2000x128.Idx) = (ix2 ⟨t.val * 2000 + r.val, h⟩ q : S100000x128.Idx) := by
  have hi := idx_rows t
  funext a
  apply Fin.ext
  match a with
  | ⟨0, _⟩ => show win1_7.index t 0 * 2000 + 1 * r.val = t.val * 2000 + r.val; rw [hi.2.2.2.2.2.2.2.2.2.2.1]; omega
  | ⟨1, _⟩ => show win1_7.index t 1 * 128 + 1 * q.val = q.val; rw [hi.2.2.2.2.2.2.2.2.2.2.2]; omega

/-- What point t writes back is block t of the array function. -/
theorem flushed7_eq (c : Dev nD) (t : Fin cfg1.N) :
    (dat1 V c).flushed 7 t = ((cfg1.win 7).blk t).view.read (Elt Ideal) (outG V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S2000x1) hz, View.ld_unit_zero (S := S1x128) hz]
  funext j
  obtain ⟨r, q, rfl⟩ : ∃ (r : Fin 2000) (q : Fin 128), j = ix2 r q := ⟨j 0, j 1, eq_ix2 j⟩
  have ht : t.val < 50 := lt_of_lt_of_eq t.isLt N50
  have hr := r.isLt
  have h : t.val * 2000 + r.val < 100000 := by omega
  refine (pay_out _ _ _ _ _ _ _ r q).trans ?_
  rw [View.read_apply, emb7 t r q h]
  unfold outG
  rw [arr2_apply, blk5, blk6]
  refine (outF_row _ _ _ _ _ _ _ _ _ _ _ _ r ⟨t.val * 2000 + r.val, h⟩ q ?_ ?_ ?_ ?_ ?_).trans (cast_eq _ _).symm
  · exact funext fun k => blk0_apply V c t (ix2 r k) (ix2 ⟨t.val * 2000 + r.val, h⟩ k) rfl rfl
  · exact funext fun k => blk1_apply V c t (ix2 r k) (ix2 ⟨t.val * 2000 + r.val, h⟩ k) rfl rfl
  · exact funext fun k => blk2_apply V c t (ix2 r k) (ix2 ⟨t.val * 2000 + r.val, h⟩ k) rfl rfl
  · exact funext fun k => blk3_apply V c t (ix2 r k) (ix2 ⟨t.val * 2000 + r.val, h⟩ k) rfl rfl
  · exact blk4_apply V c t (ix2 r (0 : Fin 1)) (ix2 ⟨t.val * 2000 + r.val, h⟩ (0 : Fin 1)) rfl rfl

/-- An index of the output array is in point t's block iff its row is among the block's rows. -/
theorem mem_blk7 (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v31).slice (win1_7.rect t)).set ↔ _
  rw [View.set_slice_whole, Rect.mem_set_unit]
  exact Iff.rfl

/-- The 50 blocks tile the array: row p lies in the block of point p / 2000. -/
theorem cover7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : (i 0).val / 2000 < cfg1.N := by rw [N50]; omega
  refine ⟨⟨(i 0).val / 2000, hN⟩, flush1_7 _, ?_⟩
  rw [mem_blk7]
  have hi := idx_rows ⟨(i 0).val / 2000, hN⟩
  intro a
  match a with
  | ⟨0, _⟩ =>
    show win1_7.index ⟨(i 0).val / 2000, hN⟩ (0 : Fin 2) * 2000 ≤ (i 0).val ∧ (i 0).val < win1_7.index ⟨(i 0).val / 2000, hN⟩ (0 : Fin 2) * 2000 + 2000
    rw [hi.2.2.2.2.2.2.2.2.2.2.1]
    show (i 0).val / 2000 * 2000 ≤ (i 0).val ∧ (i 0).val < (i 0).val / 2000 * 2000 + 2000
    omega
  | ⟨1, _⟩ =>
    show win1_7.index ⟨(i 0).val / 2000, hN⟩ (1 : Fin 2) * 128 ≤ (i 1).val ∧ (i 1).val < win1_7.index ⟨(i 0).val / 2000, hN⟩ (1 : Fin 2) * 128 + 128
    rw [hi.2.2.2.2.2.2.2.2.2.2.2]
    omega

/-- The output array after the region. -/
theorem final7 (c : Dev nD) : (dat1 V c).arrAt 7 cfg1.N = outG V c :=
  (dat1 V c).arrAt_eq_of_cover 7 (outG V c) (fun t _ => flushed7_eq V c t) (cover7)

end Cert.KernelIdeal.Region1

end
-- ==== Proof.Stretch.lean ====
/-
  What the host operations around the two kernel regions leave in the buffers the regions read.

  Before the first region five bias and gain vectors are reshaped to one-row matrices; nothing else is written. Between
  the regions the edge list is cut into its row of sources and its row of targets, negative entries are wrapped by the
  node count, the z rows are gathered at both and added, and the sums are scatter-added at the sources into zeros: the
  aggregate, one function of the z array and the edge list. The degree vector is reshaped to a column and two more
  vectors to rows. Every other buffer is passed through.
-/
import proofs.«120170_j61400852463787_1_alg».proof.Proof.Gen.KernelIdeal.Frame
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen

/-- The sources: the first row of the edge list as a vector. -/
def rowsOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The targets: the second row. -/
def colsOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- A negative node number counts from the end. -/
def wrap (r : (⟨S1600000, .i32⟩ : BufTy).Contents (Elt Ideal)) : (⟨S1600000, .i32⟩ : BufTy).Contents (Elt Ideal) :=
  select (cmpi .slt r (broadcastInDim S1600000 ![] bcast_S_S1600000 (constantI S_ 32 0#32)))
    (addi r (broadcastInDim S1600000 ![] bcast_S_S1600000 (constantI S_ 32 100000#32))) r

/-- The aggregate: z gathered at the sources and at the targets, added, and scatter-added at the sources into zeros. -/
def agg (z : (⟨S100000x128, .f32⟩ : BufTy).Contents (Elt Ideal)) (e : (⟨S2x1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (rowsOf e))
    (addf (F := Ideal)
      (Host.gather gather_S100000x128_S1600000x1_S1600000x128_1_0_n_n_0_1_1128 z
        (broadcastInDim S1600000x1 ![0] bcast_S1600000_S1600000x1_0 (wrap (rowsOf e))))
      (Host.gather gather_S100000x128_S1600000x1_S1600000x128_1_0_n_n_0_1_1128 z
        (broadcastInDim S1600000x1 ![0] bcast_S1600000_S1600000x1_0 (wrap (colsOf e)))))

variable (m : (ℓ : Loc nD τ sig) → Buf (Elt Ideal) ℓ) (ρ : Dev nD → PrngReg)

/-! ## At the first region's entry -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg3 (c : Dev nD) : V1 m ρ c main_arg3 = m ((c : Thread nD τ).loc main_arg3) := by
  show StableHlo.after hostOps0 (W0 m ρ c) (Proc.devRef .tc main_arg3) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl
theorem V1_arg6 (c : Dev nD) : V1 m ρ c main_arg6 = m ((c : Thread nD τ).loc main_arg6) := by
  show StableHlo.after hostOps0 (W0 m ρ c) (Proc.devRef .tc main_arg6) = _
  after_results <;> rfl
theorem V1_arg8 (c : Dev nD) : V1 m ρ c main_arg8 = m ((c : Thread nD τ).loc main_arg8) := by
  show StableHlo.after hostOps0 (W0 m ρ c) (Proc.devRef .tc main_arg8) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl
theorem V1_arg2 (c : Dev nD) : V1 m ρ c main_arg2 = m ((c : Thread nD τ).loc main_arg2) := by
  show StableHlo.after hostOps0 (W0 m ρ c) (Proc.devRef .tc main_arg2) = _
  after_results <;> rfl
theorem V1_arg12 (c : Dev nD) : V1 m ρ c main_arg12 = m ((c : Thread nD τ).loc main_arg12) := by
  show StableHlo.after hostOps0 (W0 m ρ c) (Proc.devRef .tc main_arg12) = _
  after_results <;> rfl
theorem V1_arg13 (c : Dev nD) : V1 m ρ c main_arg13 = m ((c : Thread nD τ).loc main_arg13) := by
  show StableHlo.after hostOps0 (W0 m ρ c) (Proc.devRef .tc main_arg13) = _
  after_results <;> rfl

theorem V1_v0 (c : Dev nD) : (V1 m ρ c main_v0 : S1x128.Idx → EReal)
    = shapeCast S1x128 (m ((c : Thread nD τ).loc main_arg4) : S128.Idx → EReal) shapeCasts_S128_S1x128 := by
  show StableHlo.after hostOps0 (W0 m ρ c) (Proc.devRef .tc main_v0) = _
  after_results <;> rfl
theorem V1_v1 (c : Dev nD) : (V1 m ρ c main_v1 : S1x256.Idx → EReal)
    = shapeCast S1x256 (m ((c : Thread nD τ).loc main_arg7) : S256.Idx → EReal) shapeCasts_S256_S1x256 := by
  show StableHlo.after hostOps0 (W0 m ρ c) (Proc.devRef .tc main_v1) = _
  after_results <;> rfl
theorem V1_v2 (c : Dev nD) : (V1 m ρ c main_v2 : S1x128.Idx → EReal)
    = shapeCast S1x128 (m ((c : Thread nD τ).loc main_arg9) : S128.Idx → EReal) shapeCasts_S128_S1x128 := by
  show StableHlo.after hostOps0 (W0 m ρ c) (Proc.devRef .tc main_v2) = _
  after_results <;> rfl
theorem V1_v3 (c : Dev nD) : (V1 m ρ c main_v3 : S1x128.Idx → EReal)
    = shapeCast S1x128 (m ((c : Thread nD τ).loc main_arg10) : S128.Idx → EReal) shapeCasts_S128_S1x128 := by
  show StableHlo.after hostOps0 (W0 m ρ c) (Proc.devRef .tc main_v3) = _
  after_results <;> rfl
theorem V1_v4 (c : Dev nD) : (V1 m ρ c main_v4 : S1x128.Idx → EReal)
    = shapeCast S1x128 (m ((c : Thread nD τ).loc main_arg11) : S128.Idx → EReal) shapeCasts_S128_S1x128 := by
  show StableHlo.after hostOps0 (W0 m ρ c) (Proc.devRef .tc main_v4) = _
  after_results <;> rfl

/-! ## At the first region's exit: its outputs, and the arguments it does not touch -/

theorem W2_arg1 (c : Dev nD) : W2 m ρ c (Proc.devRef .tc main_arg1) = m ((c : Thread nD τ).loc main_arg1) :=
  (W2_of_ne m ρ c main_arg1 (by decide)).trans (V1_arg1 m ρ c)
theorem W2_arg2 (c : Dev nD) : W2 m ρ c (Proc.devRef .tc main_arg2) = m ((c : Thread nD τ).loc main_arg2) :=
  (W2_of_ne m ρ c main_arg2 (by decide)).trans (V1_arg2 m ρ c)
theorem W2_arg12 (c : Dev nD) : W2 m ρ c (Proc.devRef .tc main_arg12) = m ((c : Thread nD τ).loc main_arg12) :=
  (W2_of_ne m ρ c main_arg12 (by decide)).trans (V1_arg12 m ρ c)
theorem W2_arg13 (c : Dev nD) : W2 m ρ c (Proc.devRef .tc main_arg13) = m ((c : Thread nD τ).loc main_arg13) :=
  (W2_of_ne m ρ c main_arg13 (by decide)).trans (V1_arg13 m ρ c)

theorem W2_z (c : Dev nD) : W2 m ρ c (Proc.devRef .tc main_v5_0) = (dat0 (V1 m ρ) c).arrAt 10 cfg0.N := W2_arr m ρ c 10
theorem W2_rate (c : Dev nD) : W2 m ρ c (Proc.devRef .tc main_v5_1) = (dat0 (V1 m ρ) c).arrAt 11 cfg0.N := W2_arr m ρ c 11
theorem W2_gamma (c : Dev nD) : W2 m ρ c (Proc.devRef .tc main_v5_2) = (dat0 (V1 m ρ) c).arrAt 12 cfg0.N := W2_arr m ρ c 12

/-! ## At the second region's entry -/

set_option maxHeartbeats 8000000 in
theorem V3_z (c : Dev nD) : V3 m ρ c main_v5_0 = W2 m ρ c (Proc.devRef .tc main_v5_0) := by
  show StableHlo.after hostOps1 (W2 m ρ c) (Proc.devRef .tc main_v5_0) = _
  after_results <;> rfl
set_option maxHeartbeats 8000000 in
theorem V3_rate (c : Dev nD) : V3 m ρ c main_v5_1 = W2 m ρ c (Proc.devRef .tc main_v5_1) := by
  show StableHlo.after hostOps1 (W2 m ρ c) (Proc.devRef .tc main_v5_1) = _
  after_results <;> rfl
set_option maxHeartbeats 8000000 in
theorem V3_gamma (c : Dev nD) : V3 m ρ c main_v5_2 = W2 m ρ c (Proc.devRef .tc main_v5_2) := by
  show StableHlo.after hostOps1 (W2 m ρ c) (Proc.devRef .tc main_v5_2) = _
  after_results <;> rfl
set_option maxHeartbeats 8000000 in
theorem V3_agg (c : Dev nD) : V3 m ρ c main_v27
    = agg (W2 m ρ c (Proc.devRef .tc main_v5_0)) (W2 m ρ c (Proc.devRef .tc main_arg1)) := by
  show StableHlo.after hostOps1 (W2 m ρ c) (Proc.devRef .tc main_v27) = _
  after_results <;> rfl
set_option maxHeartbeats 8000000 in
theorem V3_deg (c : Dev nD) : (V3 m ρ c main_v28 : S100000x1.Idx → EReal)
    = shapeCast S100000x1 (W2 m ρ c (Proc.devRef .tc main_arg2) : S100000.Idx → EReal) shapeCasts_S100000_S100000x1 := by
  show StableHlo.after hostOps1 (W2 m ρ c) (Proc.devRef .tc main_v28) = _
  after_results <;> rfl
set_option maxHeartbeats 8000000 in
theorem V3_g2 (c : Dev nD) : (V3 m ρ c main_v29 : S1x128.Idx → EReal)
    = shapeCast S1x128 (W2 m ρ c (Proc.devRef .tc main_arg12) : S128.Idx → EReal) shapeCasts_S128_S1x128 := by
  show StableHlo.after hostOps1 (W2 m ρ c) (Proc.devRef .tc main_v29) = _
  after_results <;> rfl
set_option maxHeartbeats 8000000 in
theorem V3_o2 (c : Dev nD) : (V3 m ρ c main_v30 : S1x128.Idx → EReal)
    = shapeCast S1x128 (W2 m ρ c (Proc.devRef .tc main_arg13) : S128.Idx → EReal) shapeCasts_S128_S1x128 := by
  show StableHlo.after hostOps1 (W2 m ρ c) (Proc.devRef .tc main_v30) = _
  after_results <;> rfl

/-! ## At the second region's exit -/

theorem W4_out (c : Dev nD) : W4 m ρ c (Proc.devRef .tc main_v31) = (dat1 (V3 m ρ) c).arrAt 7 cfg1.N := W4_arr m ρ c 7

end Cert.KernelIdeal.Stretch

end
-- ==== Proof.KernelValue.lean ====
/-
  The kernel program's result array, after both regions, as the layer's function of the launch memory.

  The second region's output is the last normalisation of the rows it is given; those rows are the first region's three
  outputs, passed through the host operations untouched, the aggregate the host forms from the first of them and the
  edge list, and three reshaped argument vectors. Each of the first region's outputs is in turn the dense stage's
  function of x and of the weights, the bias and gain rows being reshaped argument vectors. A vector reshaped to a row
  holds its entry q at (0, q), and reshaped to a column its entry p at (p, 0).
-/
import proofs.«120170_j61400852463787_1_alg».proof.Proof.Region0
import proofs.«120170_j61400852463787_1_alg».proof.Proof.Region0Rate
import proofs.«120170_j61400852463787_1_alg».proof.Proof.Region0Gamma
import proofs.«120170_j61400852463787_1_alg».proof.Proof.Region1
import proofs.«120170_j61400852463787_1_alg».proof.Proof.Stretch
import proofs.«120170_j61400852463787_1_alg».proof.Proof.LibRowBias
import proofs.«120170_j61400852463787_1_alg».proof.Proof.LibColumn

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen Cert.Spec

variable (m : (ℓ : Loc nD τ sig) → Buf (Elt Ideal) ℓ) (ρ : Dev nD → PrngReg)

/-- The layer's output, from the launch memory. -/
def result (c : Dev nD) : S100000x128.Idx → EReal :=
  arr2 (outF
    (rateF (fn2 (m ((c : Thread nD τ).loc main_arg0) : S100000x128.Idx → EReal)) (fn2 (m ((c : Thread nD τ).loc main_arg5) : S128x128.Idx → EReal)))
    (fn2 (Stretch.agg (arr2 (zF (fn2 (m ((c : Thread nD τ).loc main_arg0) : S100000x128.Idx → EReal)) (fn2 (m ((c : Thread nD τ).loc main_arg3) : S128x128.Idx → EReal)) (fun q => (m ((c : Thread nD τ).loc main_arg4) : S128.Idx → EReal) (ix1 q)))) (m ((c : Thread nD τ).loc main_arg1))))
    (gammaF (fn2 (m ((c : Thread nD τ).loc main_arg0) : S100000x128.Idx → EReal)) (fn2 (m ((c : Thread nD τ).loc main_arg6) : S256x128.Idx → EReal)) (fun j => (m ((c : Thread nD τ).loc main_arg7) : S256.Idx → EReal) (ix1 j)) (fn2 (m ((c : Thread nD τ).loc main_arg8) : S128x256.Idx → EReal))
      (fun q => (m ((c : Thread nD τ).loc main_arg9) : S128.Idx → EReal) (ix1 q)) (fun q => (m ((c : Thread nD τ).loc main_arg10) : S128.Idx → EReal) (ix1 q)) (fun q => (m ((c : Thread nD τ).loc main_arg11) : S128.Idx → EReal) (ix1 q)))
    (zF (fn2 (m ((c : Thread nD τ).loc main_arg0) : S100000x128.Idx → EReal)) (fn2 (m ((c : Thread nD τ).loc main_arg3) : S128x128.Idx → EReal)) (fun q => (m ((c : Thread nD τ).loc main_arg4) : S128.Idx → EReal) (ix1 q)))
    (fun p => (m ((c : Thread nD τ).loc main_arg2) : S100000.Idx → EReal) (ix1 p))
    (fun q => (m ((c : Thread nD τ).loc main_arg12) : S128.Idx → EReal) (ix1 q))
    (fun q => (m ((c : Thread nD τ).loc main_arg13) : S128.Idx → EReal) (ix1 q)))

/-- The z array the first region leaves. -/
theorem z_eq (c : Dev nD) : (dat0 (V1 m ρ) c).arrAt 10 cfg0.N = arr2 (zF (fn2 (m ((c : Thread nD τ).loc main_arg0) : S100000x128.Idx → EReal)) (fn2 (m ((c : Thread nD τ).loc main_arg3) : S128x128.Idx → EReal)) (fun q => (m ((c : Thread nD τ).loc main_arg4) : S128.Idx → EReal) (ix1 q))) := by
  rw [Region0.final10]
  unfold Region0.zG
  rw [Stretch.V1_arg0, Stretch.V1_arg3, Stretch.V1_v0]
  simp only [Cert.RowBias.ofVec_apply]

/-- The rate array the first region leaves. -/
theorem rate_eq (c : Dev nD) : (dat0 (V1 m ρ) c).arrAt 11 cfg0.N
    = arr2 (rateF (fn2 (m ((c : Thread nD τ).loc main_arg0) : S100000x128.Idx → EReal)) (fn2 (m ((c : Thread nD τ).loc main_arg5) : S128x128.Idx → EReal))) := by
  rw [Region0.final11]
  unfold Region0.rateG
  rw [Stretch.V1_arg0, Stretch.V1_arg5]

/-- The gamma array the first region leaves. -/
theorem gamma_eq (c : Dev nD) : (dat0 (V1 m ρ) c).arrAt 12 cfg0.N
    = arr2 (gammaF (fn2 (m ((c : Thread nD τ).loc main_arg0) : S100000x128.Idx → EReal)) (fn2 (m ((c : Thread nD τ).loc main_arg6) : S256x128.Idx → EReal)) (fun j => (m ((c : Thread nD τ).loc main_arg7) : S256.Idx → EReal) (ix1 j)) (fn2 (m ((c : Thread nD τ).loc main_arg8) : S128x256.Idx → EReal))
      (fun q => (m ((c : Thread nD τ).loc main_arg9) : S128.Idx → EReal) (ix1 q)) (fun q => (m ((c : Thread nD τ).loc main_arg10) : S128.Idx → EReal) (ix1 q)) (fun q => (m ((c : Thread nD τ).loc main_arg11) : S128.Idx → EReal) (ix1 q))) := by
  rw [Region0.final12]
  unfold Region0.gammaG
  rw [Stretch.V1_arg0, Stretch.V1_arg6, Stretch.V1_arg8, Stretch.V1_v1, Stretch.V1_v2, Stretch.V1_v3, Stretch.V1_v4]
  simp only [Cert.RowBias.ofVec_apply]

/-- The result array at the last boundary is the layer's output. -/
theorem W4_result (c : Dev nD) : W4 m ρ c (Proc.devRef .tc main_v31) = result m c := by
  rw [Stretch.W4_out, Region1.final7]
  unfold Region1.outG
  rw [Stretch.V3_rate, Stretch.V3_agg, Stretch.V3_gamma, Stretch.V3_z, Stretch.V3_deg, Stretch.V3_g2, Stretch.V3_o2]
  rw [Stretch.W2_rate, Stretch.W2_z, Stretch.W2_gamma, Stretch.W2_arg1, Stretch.W2_arg2, Stretch.W2_arg12, Stretch.W2_arg13]
  rw [z_eq, rate_eq, gamma_eq]
  simp only [fn2_arr2, Cert.RowBias.ofVec_apply, Idealize.ShloMosaic.Column.shapeCast_a_a1_apply]
  rfl

end Cert.KernelIdeal.KValue

end
-- ==== Proof.RefValue.lean ====
/-
  The reference program's result as the specification's function of the arguments.

  The host program computes, row by row, z = x W_fc^T + b_fc, rate = softplus (x W_rate^T),
  h = softplus (x W1^T + b1) and gamma = LayerNorm (h W2^T + b2); it forms the aggregate of the z rows over the edge
  list by two gathers and a scatter-add, and returns LayerNorm ((rate * agg + gamma) / (1 + rate * deg + eps) - z).
  Each stage is read at an index (p, q): a matrix product is a row against a row, a sum along the columns is the
  row's sum, a column broadcast across the columns holds the column's entry of the row, a vector broadcast down the
  rows holds the vector's entry of the column. The aggregate is carried as one function of the z array and the
  edge list, never opened.
-/
import proofs.«120170_j61400852463787_1_alg».proof.Proof.Gen.ReferenceIdeal.Run
import proofs.«120170_j61400852463787_1_alg».proof.Proof.Gen.ReferenceIdeal.Read
import proofs.«120170_j61400852463787_1_alg».proof.Proof.Spec
import proofs.«120170_j61400852463787_1_alg».proof.Proof.LibDotRows
import proofs.«120170_j61400852463787_1_alg».proof.Proof.LibRows
import proofs.«120170_j61400852463787_1_alg».proof.Proof.LibRowBias
import proofs.«120170_j61400852463787_1_alg».proof.Proof.LibColumn
import Idealize.ShloMosaic.PureOps.Ideal.Laws
import Idealize.ShloMosaic.Lib.ValueIdx
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Value Cert.ReferenceIdeal.Read Cert.Spec Idealize.ShloMosaic
  Idealize.ShloMosaic.ValueIdx

/-! ## The matrix products: a row of the left operand against a row of the stored matrix -/

theorem dotA_apply (L : (⟨S100000x128, .f32⟩ : BufTy).Contents (Elt Ideal)) (W : (⟨S128x128, .f32⟩ : BufTy).Contents (Elt Ideal))
    (p : Fin 100000) (q : Fin 128) :
    Host.dotGeneral (F := Ideal) (φ₁ := .f32) (φ₂ := .f32) dot_S100000x128_S128x128_S100000x128_1_1_0_0_n_n none L W (ix2 p q)
      = dot (fn2 (L : S100000x128.Idx → EReal) p) (fn2 (W : S128x128.Idx → EReal) q) :=
  Cert.DotRows.dotGeneral_apply (M := 100000) (K := 128) (N := 128) none .single L W p q

theorem dotB_apply (L : (⟨S100000x128, .f32⟩ : BufTy).Contents (Elt Ideal)) (W : (⟨S256x128, .f32⟩ : BufTy).Contents (Elt Ideal))
    (p : Fin 100000) (j : Fin 256) :
    Host.dotGeneral (F := Ideal) (φ₁ := .f32) (φ₂ := .f32) dot_S100000x128_S256x128_S100000x256_1_1_0_0_n_n none L W (ix2 p j)
      = dot (fn2 (L : S100000x128.Idx → EReal) p) (fn2 (W : S256x128.Idx → EReal) j) :=
  Cert.DotRows.dotGeneral_apply (M := 100000) (K := 128) (N := 256) none .single L W p j

theorem dotC_apply (L : (⟨S100000x256, .f32⟩ : BufTy).Contents (Elt Ideal)) (W : (⟨S128x256, .f32⟩ : BufTy).Contents (Elt Ideal))
    (p : Fin 100000) (q : Fin 128) :
    Host.dotGeneral (F := Ideal) (φ₁ := .f32) (φ₂ := .f32) dot_S100000x256_S128x256_S100000x128_1_1_0_0_n_n none L W (ix2 p q)
      = dot (fn2 (L : S100000x256.Idx → EReal) p) (fn2 (W : S128x256.Idx → EReal) q) :=
  Cert.DotRows.dotGeneral_apply (M := 100000) (K := 256) (N := 128) none .single L W p q

/-! ## z and rate -/

/-- z = x W_fc^T + b_fc, as an array. -/
theorem z_eq (x0 : (⟨S100000x128, .f32⟩ : BufTy).Contents (Elt Ideal)) (x3 : (⟨S128x128, .f32⟩ : BufTy).Contents (Elt Ideal))
    (x4 : (⟨S128, .f32⟩ : BufTy).Contents (Elt Ideal)) :
    val_main_v38 (F := Ideal) x0 x3 x4
      = arr2 (zF (fn2 (x0 : S100000x128.Idx → EReal)) (fn2 (x3 : S128x128.Idx → EReal)) (fun q => (x4 : S128.Idx → EReal) (ix1 q))) := by
  funext i
  obtain ⟨p, q, rfl⟩ : ∃ (p : Fin 100000) (q : Fin 128), i = ix2 p q := ⟨i 0, i 1, eq_ix2 i⟩
  unfold val_main_v38 val_main_v35 val_main_v37 val_main_v36
  exact congrArg₂ (· + ·) (dotA_apply x0 x3 p q)
    (Cert.RowBias.hostRows_apply (M := 100000) x4 bcast_S128_S1x128_1 bcast_S1x128_S100000x128_0_1 p q)

/-- rate = softplus (x W_rate^T), as an array. -/
theorem rate_eq (x0 : (⟨S100000x128, .f32⟩ : BufTy).Contents (Elt Ideal)) (x5 : (⟨S128x128, .f32⟩ : BufTy).Contents (Elt Ideal)) :
    val_main_v1 (F := Ideal) x0 x5
      = arr2 (rateF (fn2 (x0 : S100000x128.Idx → EReal)) (fn2 (x5 : S128x128.Idx → EReal))) := by
  funext i
  obtain ⟨p, q, rfl⟩ : ∃ (p : Fin 100000) (q : Fin 128), i = ix2 p q := ⟨i 0, i 1, eq_ix2 i⟩
  simp only [val_main_v1_apply, val_main_call0_v4_apply, val_main_call0_v3_apply, val_main_call0_v6_apply,
    val_main_call0_v11_apply, val_main_call0_v1_apply, val_main_call0_v10_apply, val_main_call0_v9_apply,
    val_main_call0_v8_apply, val_main_call0_v7_apply, val_main_call0_v0_apply, val_main_call0_v2_apply,
    val_main_call0_v5_apply, val_main_call0_cst_apply]
  have h : val_main_v0 (F := Ideal) x0 x5 (ix2 p q) = dot (fn2 (x0 : S100000x128.Idx → EReal) p) (fn2 (x5 : S128x128.Idx → EReal) q) :=
    dotA_apply x0 x5 p q
  rw [h]
  exact sp_host _

/-! ## h and the array before the first normalisation -/

/-- h = softplus (x W1^T + b1), as an array. -/
theorem h_eq (x0 : (⟨S100000x128, .f32⟩ : BufTy).Contents (Elt Ideal)) (x6 : (⟨S256x128, .f32⟩ : BufTy).Contents (Elt Ideal)) (x7 : (⟨S256, .f32⟩ : BufTy).Contents (Elt Ideal)) :
    val_main_v6 (F := Ideal) x0 x6 x7
      = arr2 (hF (fn2 (x0 : S100000x128.Idx → EReal)) (fn2 (x6 : S256x128.Idx → EReal)) (fun j => (x7 : S256.Idx → EReal) (ix1 j))) := by
  funext i
  obtain ⟨p, j, rfl⟩ : ∃ (p : Fin 100000) (j : Fin 256), i = ix2 p j := ⟨i 0, i 1, eq_ix2 i⟩
  simp only [val_main_v6_apply, val_main_call1_v4_apply, val_main_call1_v3_apply, val_main_call1_v6_apply, val_main_call1_v11_apply, val_main_call1_v1_apply, val_main_call1_v10_apply, val_main_call1_v9_apply, val_main_call1_v8_apply, val_main_call1_v7_apply, val_main_call1_v0_apply, val_main_call1_v2_apply, val_main_call1_v5_apply, val_main_call1_cst_apply]
  have h : val_main_v5 (F := Ideal) x0 x6 x7 (ix2 p j)
      = dot (fn2 (x0 : S100000x128.Idx → EReal) p) (fn2 (x6 : S256x128.Idx → EReal) j) + (x7 : S256.Idx → EReal) (ix1 j) := by
    unfold val_main_v5 val_main_v2 val_main_v4 val_main_v3
    exact congrArg₂ (· + ·) (dotB_apply x0 x6 p j)
      (Cert.RowBias.hostRows_apply (M := 100000) x7 bcast_S256_S1x256_1 bcast_S1x256_S100000x256_0_1 p j)
  rw [h]
  exact sp_host _

/-- The rows h W2^T + b2, as an array. -/
theorem pre_eq (x0 : (⟨S100000x128, .f32⟩ : BufTy).Contents (Elt Ideal)) (x6 : (⟨S256x128, .f32⟩ : BufTy).Contents (Elt Ideal)) (x7 : (⟨S256, .f32⟩ : BufTy).Contents (Elt Ideal)) (x8 : (⟨S128x256, .f32⟩ : BufTy).Contents (Elt Ideal)) (x9 : (⟨S128, .f32⟩ : BufTy).Contents (Elt Ideal)) :
    val_main_v10 (F := Ideal) x0 x6 x7 x8 x9
      = arr2 (fun p k => dot (hF (fn2 (x0 : S100000x128.Idx → EReal)) (fn2 (x6 : S256x128.Idx → EReal)) (fun j => (x7 : S256.Idx → EReal) (ix1 j)) p)
          (fn2 (x8 : S128x256.Idx → EReal) k) + (x9 : S128.Idx → EReal) (ix1 k)) := by
  funext i
  obtain ⟨p, q, rfl⟩ : ∃ (p : Fin 100000) (q : Fin 128), i = ix2 p q := ⟨i 0, i 1, eq_ix2 i⟩
  unfold val_main_v10 val_main_v7 val_main_v9 val_main_v8
  rw [h_eq]
  exact congrArg₂ (· + ·) (dotC_apply _ x8 p q)
    (Cert.RowBias.hostRows_apply (M := 100000) x9 bcast_S128_S1x128_1 bcast_S1x128_S100000x128_0_1 p q)

/-! ## The host's layer normalisation of an array of rows -/

/-- The mean of every row, as a column: the sum along the columns, laid out as a column, divided by the literal 128. -/
def meanC (v : FVec Ideal S100000x128 .f32) : FVec Ideal S100000x1 .f32 :=
  Host.divf (F := Ideal)
    (broadcastInDim S100000x1 ![0] bcast_S100000_S100000x1_0
      (Host.reduceAdd (F := Ideal) v (constant (F := Ideal) S_ .f32 0x00000000#32) reducesTo_S100000x128_S100000_d1 h_S_))
    (broadcastInDim S100000x1 ![] bcast_S_S100000x1 (constant (F := Ideal) S_ .f32 0x43000000#32))

/-- The host's normalisation of the rows of v with gain g and offset b, in the program's own operations. -/
def lnH (v : FVec Ideal S100000x128 .f32) (g b : FVec Ideal S128 .f32) : FVec Ideal S100000x128 .f32 :=
  addf
    (mulf
      (mulf
        (subf v (broadcastInDim S100000x128 ![0, 1] bcast_S100000x1_S100000x128_0_1 (meanC v)))
        (broadcastInDim S100000x128 ![0, 1] bcast_S100000x1_S100000x128_0_1
          (Host.rsqrt (F := Ideal)
            (addf
              (meanC (mulf (subf v (broadcastInDim S100000x128 ![0, 1] bcast_S100000x1_S100000x128_0_1 (meanC v)))
                (subf v (broadcastInDim S100000x128 ![0, 1] bcast_S100000x1_S100000x128_0_1 (meanC v)))))
              (broadcastInDim S100000x1 ![] bcast_S_S100000x1 (constant (F := Ideal) S_ .f32 0x3727C5AC#32))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 b))

/-- The mean column at row p is the mean of row p. -/
theorem meanC_apply (v : FVec Ideal S100000x128 .f32) (p : Fin 100000) (u : Fin 1) :
    meanC v (ix2 p u) = mean (fn2 (v : S100000x128.Idx → EReal) p) := by
  unfold meanC
  refine (congrArg₂ Ideal.div
    ((Idealize.ShloMosaic.Column.broadcastInDim_a_a1_apply _ ![0] rfl bcast_S100000_S100000x1_0 p u).trans
      (Idealize.ShloMosaic.Rows.hredAdd_row (n := 100000) (c := 128) v (constant (F := Ideal) S_ .f32 0x00000000#32)
        reducesTo_S100000x128_S100000_d1 (by decide) h_S_ p))
    (Cert.RowBias.splat_apply (constant (F := Ideal) S_ .f32 0x43000000#32) bcast_S_S100000x1 (ix2 p u))).trans ?_
  show Ideal.div (Ideal.ofBits .f32 0x00000000#32 + ∑ k : Fin 128, (v : S100000x128.Idx → EReal) (ix2 p k)) (Ideal.ofBits .f32 0x43000000#32) = _
  rw [Ideal.ofBits_zero_f32, zero_add]
  rfl

/-- A column broadcast across the columns holds, at (p, k), the column's entry of row p. -/
theorem col_apply (y : FVec Ideal S100000x1 .f32) (p : Fin 100000) (k : Fin 128) :
    broadcastInDim S100000x128 ![0, 1] bcast_S100000x1_S100000x128_0_1 y (ix2 p k) = y (ix2 p (0 : Fin 1)) :=
  Idealize.ShloMosaic.Column.broadcastInDim_a1_ab_apply (a := 100000) (b := 128) (by decide) y ![0, 1] rfl rfl
    bcast_S100000x1_S100000x128_0_1 p k

/-- The host's normalisation at (p, q) is the layer normalisation of row p at column q. -/
theorem lnH_apply (v : FVec Ideal S100000x128 .f32) (g b : FVec Ideal S128 .f32) (p : Fin 100000) (q : Fin 128) :
    lnH v g b (ix2 p q)
      = ln (fn2 (v : S100000x128.Idx → EReal) p) (fun k => (g : S128.Idx → EReal) (ix1 k)) (fun k => (b : S128.Idx → EReal) (ix1 k)) q := by
  have hm : ∀ k : Fin 128, broadcastInDim S100000x128 ![0, 1] bcast_S100000x1_S100000x128_0_1 (meanC v) (ix2 p k)
      = mean (fn2 (v : S100000x128.Idx → EReal) p) := fun k => (col_apply (meanC v) p k).trans (meanC_apply v p 0)
  have hv : meanC (mulf (subf v (broadcastInDim S100000x128 ![0, 1] bcast_S100000x1_S100000x128_0_1 (meanC v))) (subf v (broadcastInDim S100000x128 ![0, 1] bcast_S100000x1_S100000x128_0_1 (meanC v)))) (ix2 p (0 : Fin 1))
      = mean (fun k => (fn2 (v : S100000x128.Idx → EReal) p k - mean (fn2 (v : S100000x128.Idx → EReal) p))
          * (fn2 (v : S100000x128.Idx → EReal) p k - mean (fn2 (v : S100000x128.Idx → EReal) p))) := by
    refine (meanC_apply _ p 0).trans (congrArg mean (funext fun k => ?_))
    show ((v : S100000x128.Idx → EReal) (ix2 p k) - broadcastInDim S100000x128 ![0, 1] bcast_S100000x1_S100000x128_0_1 (meanC v) (ix2 p k)) * ((v : S100000x128.Idx → EReal) (ix2 p k) - broadcastInDim S100000x128 ![0, 1] bcast_S100000x1_S100000x128_0_1 (meanC v) (ix2 p k)) = _
    rw [hm k]
    rfl
  unfold lnH
  refine (congrArg₂ (· + ·)
    (congrArg₂ (· * ·)
      (congrArg₂ (· * ·) (congrArg ((v : S100000x128.Idx → EReal) (ix2 p q) - ·) (hm q))
        ((col_apply _ p q).trans (congrArg Ideal.rsqrt (congrArg₂ (· + ·) hv
          (Cert.RowBias.splat_apply (constant (F := Ideal) S_ .f32 0x3727C5AC#32) bcast_S_S100000x1 (ix2 p (0 : Fin 1)))))))
      (Cert.RowBias.hostRows_apply (M := 100000) g bcast_S128_S1x128_1 bcast_S1x128_S100000x128_0_1 p q))
    (Cert.RowBias.hostRows_apply (M := 100000) b bcast_S128_S1x128_1 bcast_S1x128_S100000x128_0_1 p q)).trans ?_
  rfl

/-! ## gamma -/

/-- The program's stages from h W2^T + b2 to gamma are the host's normalisation of that array. -/
theorem gamma_stage (x0 : (⟨S100000x128, .f32⟩ : BufTy).Contents (Elt Ideal)) (x6 : (⟨S256x128, .f32⟩ : BufTy).Contents (Elt Ideal)) (x7 : (⟨S256, .f32⟩ : BufTy).Contents (Elt Ideal)) (x8 : (⟨S128x256, .f32⟩ : BufTy).Contents (Elt Ideal)) (x9 x10 x11 : (⟨S128, .f32⟩ : BufTy).Contents (Elt Ideal)) :
    val_main_v34 (F := Ideal) x0 x6 x7 x8 x9 x10 x11 = lnH (val_main_v10 (F := Ideal) x0 x6 x7 x8 x9) x10 x11 := by
  unfold val_main_v34 val_main_v31 val_main_v33 val_main_v32 val_main_v30 val_main_v29 val_main_v28 val_main_v27 val_main_v26 val_main_v25 val_main_v24 val_main_cst_3 val_main_v23 val_main_v22 val_main_v21 val_main_v20 val_main_cst_2 val_main_v19 val_main_v18 val_main_cst_1 val_main_v17 val_main_v16 val_main_v15 val_main_v14 val_main_v13 val_main_cst_0 val_main_v12 val_main_v11 val_main_cst lnH meanC
  generalize val_main_v10 (F := Ideal) x0 x6 x7 x8 x9 = v
  rfl

/-- gamma = LayerNorm (h W2^T + b2), as an array. -/
theorem gamma_eq (x0 : (⟨S100000x128, .f32⟩ : BufTy).Contents (Elt Ideal)) (x6 : (⟨S256x128, .f32⟩ : BufTy).Contents (Elt Ideal)) (x7 : (⟨S256, .f32⟩ : BufTy).Contents (Elt Ideal)) (x8 : (⟨S128x256, .f32⟩ : BufTy).Contents (Elt Ideal)) (x9 x10 x11 : (⟨S128, .f32⟩ : BufTy).Contents (Elt Ideal)) :
    val_main_v34 (F := Ideal) x0 x6 x7 x8 x9 x10 x11
      = arr2 (gammaF (fn2 (x0 : S100000x128.Idx → EReal)) (fn2 (x6 : S256x128.Idx → EReal)) (fun j => (x7 : S256.Idx → EReal) (ix1 j))
          (fn2 (x8 : S128x256.Idx → EReal)) (fun q => (x9 : S128.Idx → EReal) (ix1 q)) (fun q => (x10 : S128.Idx → EReal) (ix1 q))
          (fun q => (x11 : S128.Idx → EReal) (ix1 q))) := by
  rw [gamma_stage, pre_eq]
  funext i
  obtain ⟨p, q, rfl⟩ : ∃ (p : Fin 100000) (q : Fin 128), i = ix2 p q := ⟨i 0, i 1, eq_ix2 i⟩
  exact lnH_apply _ x10 x11 p q

/-! ## The aggregate -/

/-- The aggregate as the host computes it from a z array and the edge list: the rows and the columns of the edge list
    are its two slices, each reshaped to a vector; a negative entry is wrapped by adding 100000; z is gathered at the
    wrapped rows and at the wrapped columns, the two gathered arrays are added, and the sum is scatter-added at the
    rows into an array of zeros. -/
def aggR (z : (⟨S100000x128, .f32⟩ : BufTy).Contents (Elt Ideal)) (e : (⟨S2x1600000, .i32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (shapeCast S1600000 (extractStridedSlice S1x1600000 ![0, 0] e slices_S2x1600000_S1x1600000_0_0) shapeCasts_S1x1600000_S1600000))
    (addf
      (Host.gather gather_S100000x128_S1600000x1_S1600000x128_1_0_n_n_0_1_1128 z
        (broadcastInDim S1600000x1 ![0] bcast_S1600000_S1600000x1_0
          (select (cmpi .slt (shapeCast S1600000 (extractStridedSlice S1x1600000 ![0, 0] e slices_S2x1600000_S1x1600000_0_0) shapeCasts_S1x1600000_S1600000) (broadcastInDim S1600000 ![] bcast_S_S1600000 (constantI S_ 32 0#32)))
            (addi (shapeCast S1600000 (extractStridedSlice S1x1600000 ![0, 0] e slices_S2x1600000_S1x1600000_0_0) shapeCasts_S1x1600000_S1600000) (broadcastInDim S1600000 ![] bcast_S_S1600000 (constantI S_ 32 100000#32)))
            (shapeCast S1600000 (extractStridedSlice S1x1600000 ![0, 0] e slices_S2x1600000_S1x1600000_0_0) shapeCasts_S1x1600000_S1600000))))
      (Host.gather gather_S100000x128_S1600000x1_S1600000x128_1_0_n_n_0_1_1128 z
        (broadcastInDim S1600000x1 ![0] bcast_S1600000_S1600000x1_0
          (select (cmpi .slt (shapeCast S1600000 (extractStridedSlice S1x1600000 ![1, 0] e slices_S2x1600000_S1x1600000_1_0) shapeCasts_S1x1600000_S1600000) (broadcastInDim S1600000 ![] bcast_S_S1600000 (constantI S_ 32 0#32)))
            (addi (shapeCast S1600000 (extractStridedSlice S1x1600000 ![1, 0] e slices_S2x1600000_S1x1600000_1_0) shapeCasts_S1x1600000_S1600000) (broadcastInDim S1600000 ![] bcast_S_S1600000 (constantI S_ 32 100000#32)))
            (shapeCast S1600000 (extractStridedSlice S1x1600000 ![1, 0] e slices_S2x1600000_S1x1600000_1_0) shapeCasts_S1x1600000_S1600000)))))

/-- The program's stages from z to the aggregate are that function of z and the edge list. -/
theorem agg_stage (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) :
    val_main_v60 (F := Ideal) x0 x1 x3 x4 = aggR (val_main_v38 (F := Ideal) x0 x3 x4) x1 := by
  unfold val_main_v60 val_main_v58 val_main_cst_7 val_main_v59 val_main_v57 val_main_v49 val_main_v56 val_main_v48 val_main_v55 val_main_v47 val_main_v54 val_main_v44 val_main_v46 val_main_v51 val_main_v53 val_main_v43 val_main_v45 val_main_v50 val_main_v52 val_main_c val_main_c_4 val_main_c_5 val_main_c_6 val_main_v40 val_main_v42 val_main_v39 val_main_v41 aggR
  generalize val_main_v38 (F := Ideal) x0 x3 x4 = z
  rfl

/-! ## The combination and the last normalisation -/

/-- (rate * agg + gamma) / (1 + rate * deg + eps) - z, in the program's own operations. -/
def valH (rate agg gamma z : FVec Ideal S100000x128 .f32) (deg : FVec Ideal S100000 .f32) : FVec Ideal S100000x128 .f32 :=
  subf
    (Host.divf (F := Ideal)
      (addf (mulf rate agg) gamma)
      (addf
        (addf (broadcastInDim S100000x128 ![] bcast_S_S100000x128 (constant (F := Ideal) S_ .f32 0x3F800000#32))
          (mulf rate (broadcastInDim S100000x128 ![0, 1] bcast_S100000x1_S100000x128_0_1
            (broadcastInDim S100000x1 ![0] bcast_S100000_S100000x1_0 deg))))
        (broadcastInDim S100000x128 ![] bcast_S_S100000x128 (constant (F := Ideal) S_ .f32 0x38D1B717#32))))
    z

/-- The combination at (p, q). -/
theorem valH_apply (rate agg gamma z : FVec Ideal S100000x128 .f32) (deg : FVec Ideal S100000 .f32) (p : Fin 100000) (q : Fin 128) :
    valH rate agg gamma z deg (ix2 p q)
      = val (rate (ix2 p q)) (agg (ix2 p q)) (gamma (ix2 p q)) (z (ix2 p q)) (deg (ix1 p)) := by
  unfold valH
  refine (congrArg (· - z (ix2 p q)) (congrArg (Ideal.div (rate (ix2 p q) * agg (ix2 p q) + gamma (ix2 p q)))
    (congrArg₂ (· + ·)
      (congrArg₂ (· + ·)
        (Cert.RowBias.splat_apply (constant (F := Ideal) S_ .f32 0x3F800000#32) bcast_S_S100000x128 (ix2 p q))
        (congrArg (rate (ix2 p q) * ·) ((col_apply _ p q).trans
          (Idealize.ShloMosaic.Column.broadcastInDim_a_a1_apply deg ![0] rfl bcast_S100000_S100000x1_0 p 0))))
      (Cert.RowBias.splat_apply (constant (F := Ideal) S_ .f32 0x38D1B717#32) bcast_S_S100000x128 (ix2 p q))))).trans ?_
  rfl

/-- The program's stages from rate, the aggregate, gamma and z to the combination. -/
theorem val_stage (x0 : (⟨S100000x128, .f32⟩ : BufTy).Contents (Elt Ideal)) (x1 : (⟨S2x1600000, .i32⟩ : BufTy).Contents (Elt Ideal)) (x2 : (⟨S100000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S256x128, .f32⟩ : BufTy).Contents (Elt Ideal)) (x7 : (⟨S256, .f32⟩ : BufTy).Contents (Elt Ideal)) (x8 : (⟨S128x256, .f32⟩ : BufTy).Contents (Elt Ideal)) (x9 x10 x11 : (⟨S128, .f32⟩ : BufTy).Contents (Elt Ideal)) :
    val_main_v71 (F := Ideal) x0 x1 x2 x3 x4 x5 x6 x7 x8 x9 x10 x11
      = valH (val_main_v1 (F := Ideal) x0 x5) (val_main_v60 (F := Ideal) x0 x1 x3 x4)
          (val_main_v34 (F := Ideal) x0 x6 x7 x8 x9 x10 x11) (val_main_v38 (F := Ideal) x0 x3 x4) x2 := by
  unfold val_main_v71 val_main_v70 val_main_v69 val_main_v68 val_main_cst_9 val_main_v67 val_main_v66 val_main_cst_8 val_main_v65 val_main_v64 val_main_v63 val_main_v62 val_main_v61 valH
  generalize val_main_v1 (F := Ideal) x0 x5 = r
  generalize val_main_v60 (F := Ideal) x0 x1 x3 x4 = a
  generalize val_main_v34 (F := Ideal) x0 x6 x7 x8 x9 x10 x11 = g
  generalize val_main_v38 (F := Ideal) x0 x3 x4 = z
  rfl

/-- The program's stages from the combination to the result are the host's normalisation of it. -/
theorem out_stage (x0 : (⟨S100000x128, .f32⟩ : BufTy).Contents (Elt Ideal)) (x1 : (⟨S2x1600000, .i32⟩ : BufTy).Contents (Elt Ideal)) (x2 : (⟨S100000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S256x128, .f32⟩ : BufTy).Contents (Elt Ideal)) (x7 : (⟨S256, .f32⟩ : BufTy).Contents (Elt Ideal)) (x8 : (⟨S128x256, .f32⟩ : BufTy).Contents (Elt Ideal)) (x9 x10 x11 x12 x13 : (⟨S128, .f32⟩ : BufTy).Contents (Elt Ideal)) :
    val_main_v95 (F := Ideal) x0 x1 x2 x3 x4 x5 x6 x7 x8 x9 x10 x11 x12 x13
      = lnH (val_main_v71 (F := Ideal) x0 x1 x2 x3 x4 x5 x6 x7 x8 x9 x10 x11) x12 x13 := by
  unfold val_main_v95 val_main_v92 val_main_v94 val_main_v93 val_main_v91 val_main_v90 val_main_v89 val_main_v88 val_main_v87 val_main_v86 val_main_v85 val_main_cst_14 val_main_v84 val_main_v83 val_main_v82 val_main_v81 val_main_cst_13 val_main_v80 val_main_v79 val_main_cst_12 val_main_v78 val_main_v77 val_main_v76 val_main_v75 val_main_v74 val_main_cst_11 val_main_v73 val_main_v72 val_main_cst_10 lnH meanC
  generalize val_main_v71 (F := Ideal) x0 x1 x2 x3 x4 x5 x6 x7 x8 x9 x10 x11 = v
  rfl

/-- The last stage as the specification's function of the arguments. -/
theorem out_eq (x0 : (⟨S100000x128, .f32⟩ : BufTy).Contents (Elt Ideal)) (x1 : (⟨S2x1600000, .i32⟩ : BufTy).Contents (Elt Ideal)) (x2 : (⟨S100000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S256x128, .f32⟩ : BufTy).Contents (Elt Ideal)) (x7 : (⟨S256, .f32⟩ : BufTy).Contents (Elt Ideal)) (x8 : (⟨S128x256, .f32⟩ : BufTy).Contents (Elt Ideal)) (x9 x10 x11 x12 x13 : (⟨S128, .f32⟩ : BufTy).Contents (Elt Ideal)) :
    val_main_v95 (F := Ideal) x0 x1 x2 x3 x4 x5 x6 x7 x8 x9 x10 x11 x12 x13
      = arr2 (outF
            (rateF (fn2 (x0 : S100000x128.Idx → EReal)) (fn2 (x5 : S128x128.Idx → EReal)))
            (fn2 (aggR (arr2 (zF (fn2 (x0 : S100000x128.Idx → EReal)) (fn2 (x3 : S128x128.Idx → EReal)) (fun q => (x4 : S128.Idx → EReal) (ix1 q)))) x1))
            (gammaF (fn2 (x0 : S100000x128.Idx → EReal)) (fn2 (x6 : S256x128.Idx → EReal)) (fun j => (x7 : S256.Idx → EReal) (ix1 j)) (fn2 (x8 : S128x256.Idx → EReal)) (fun q => (x9 : S128.Idx → EReal) (ix1 q)) (fun q => (x10 : S128.Idx → EReal) (ix1 q)) (fun q => (x11 : S128.Idx → EReal) (ix1 q)))
            (zF (fn2 (x0 : S100000x128.Idx → EReal)) (fn2 (x3 : S128x128.Idx → EReal)) (fun q => (x4 : S128.Idx → EReal) (ix1 q)))
            (fun p => (x2 : S100000.Idx → EReal) (ix1 p))
            (fun q => (x12 : S128.Idx → EReal) (ix1 q))
            (fun q => (x13 : S128.Idx → EReal) (ix1 q))) := by
  rw [out_stage, val_stage, rate_eq, agg_stage, gamma_eq, z_eq]
  funext i
  obtain ⟨p, q, rfl⟩ : ∃ (p : Fin 100000) (q : Fin 128), i = ix2 p q := ⟨i 0, i 1, eq_ix2 i⟩
  refine (lnH_apply _ x12 x13 p q).trans ?_
  exact congrArg (fun f => ln f (fun k => (x12 : S128.Idx → EReal) (ix1 k)) (fun k => (x13 : S128.Idx → EReal) (ix1 k)) q)
    (funext fun k => valH_apply _ _ _ _ x2 p k)

/-- The reference program's result is the specification's function of its arguments. -/
theorem result_eq (m : (ℓ : Loc nD τ sig) → Buf (Elt Ideal) ℓ) (c : Dev nD) :
    (res_main_v95 (F := Ideal) m c : S100000x128.Idx → EReal)
      = arr2 (outF
            (rateF (fn2 (m ((c.tc : Thread nD τ).loc main_arg0) : S100000x128.Idx → EReal)) (fn2 (m ((c.tc : Thread nD τ).loc main_arg5) : S128x128.Idx → EReal)))
            (fn2 (aggR (arr2 (zF (fn2 (m ((c.tc : Thread nD τ).loc main_arg0) : S100000x128.Idx → EReal)) (fn2 (m ((c.tc : Thread nD τ).loc main_arg3) : S128x128.Idx → EReal)) (fun q => (m ((c.tc : Thread nD τ).loc main_arg4) : S128.Idx → EReal) (ix1 q)))) (m ((c.tc : Thread nD τ).loc main_arg1))))
            (gammaF (fn2 (m ((c.tc : Thread nD τ).loc main_arg0) : S100000x128.Idx → EReal)) (fn2 (m ((c.tc : Thread nD τ).loc main_arg6) : S256x128.Idx → EReal)) (fun j => (m ((c.tc : Thread nD τ).loc main_arg7) : S256.Idx → EReal) (ix1 j)) (fn2 (m ((c.tc : Thread nD τ).loc main_arg8) : S128x256.Idx → EReal)) (fun q => (m ((c.tc : Thread nD τ).loc main_arg9) : S128.Idx → EReal) (ix1 q)) (fun q => (m ((c.tc : Thread nD τ).loc main_arg10) : S128.Idx → EReal) (ix1 q)) (fun q => (m ((c.tc : Thread nD τ).loc main_arg11) : S128.Idx → EReal) (ix1 q)))
            (zF (fn2 (m ((c.tc : Thread nD τ).loc main_arg0) : S100000x128.Idx → EReal)) (fn2 (m ((c.tc : Thread nD τ).loc main_arg3) : S128x128.Idx → EReal)) (fun q => (m ((c.tc : Thread nD τ).loc main_arg4) : S128.Idx → EReal) (ix1 q)))
            (fun p => (m ((c.tc : Thread nD τ).loc main_arg2) : S100000.Idx → EReal) (ix1 p))
            (fun q => (m ((c.tc : Thread nD τ).loc main_arg12) : S128.Idx → EReal) (ix1 q))
            (fun q => (m ((c.tc : Thread nD τ).loc main_arg13) : S128.Idx → EReal) (ix1 q))) :=
  (val_main_v95_eq (F := Ideal) m c).trans (out_eq _ _ _ _ _ _ _ _ _ _ _ _ _ _)

end Cert.ReferenceIdeal.RefValue

end
-- ==== Proof.lean ====
/-
  The certificate of one graph layer: a Pallas kernel of two calls against its jnp reference, equal on the extended reals.

  Both programs compute, for every node p with features x p, z p = W_fc (x p) + b_fc, rate p = softplus (W_rate (x p)) and
  gamma p = LayerNorm (W2 (softplus (W1 (x p) + b1)) + b2); then the aggregate agg of the z rows over the edges (z gathered at
  the sources and at the targets, added, scatter-added at the sources), and
  out p = LayerNorm ((rate p * agg p + gamma p) / (1 + rate p * deg p + eps) - z p).
  The kernel forms z, rate and gamma in a first call over blocks of 2000 rows, leaves the aggregate to the host, and forms
  out in a second call over the same blocks; the reference does everything on whole arrays. Every step but the aggregate
  acts on one row, so a block of rows gives each of its rows what the whole array gives it; a matrix product into a zero
  accumulator and the host's contraction are the same finite sum; the kernel's and the host's spellings of softplus agree
  (the test x ≠ x never holds, and 0 - |x| = -|x|); a change of float format is the identity; the literals 128, 1, 1e-4 and
  1e-5 are the same words on both sides; and the aggregate is one function applied to equal z arrays. No finiteness of the
  inputs is used. The idealisation ledger is empty, so the kernel's idealised program needs no further witness.
-/
import proofs.«120170_j61400852463787_1_alg».proof.Defs
import proofs.«120170_j61400852463787_1_alg».proof.Proof.Gen.Kernel
import proofs.«120170_j61400852463787_1_alg».proof.Proof.Gen.Kernel.Skeleton
import proofs.«120170_j61400852463787_1_alg».proof.Proof.Gen.Kernel.Launch
import proofs.«120170_j61400852463787_1_alg».proof.Proof.Gen.Kernel.Points
import proofs.«120170_j61400852463787_1_alg».proof.Proof.Gen.Kernel.Frame
import proofs.«120170_j61400852463787_1_alg».proof.Proof.Gen.KernelIdeal
import proofs.«120170_j61400852463787_1_alg».proof.Proof.Gen.KernelIdeal.Skeleton
import proofs.«120170_j61400852463787_1_alg».proof.Proof.Gen.KernelIdeal.Launch
import proofs.«120170_j61400852463787_1_alg».proof.Proof.Gen.KernelIdeal.Points
import proofs.«120170_j61400852463787_1_alg».proof.Proof.Gen.KernelIdeal.Frame
import proofs.«120170_j61400852463787_1_alg».proof.Proof.Gen.ReferenceIdeal
import proofs.«120170_j61400852463787_1_alg».proof.Proof.Gen.ReferenceIdeal.Run
import proofs.«120170_j61400852463787_1_alg».proof.Proof.Gen.Pre_finite_inputs
import proofs.«120170_j61400852463787_1_alg».proof.Proof.KernelRun
import proofs.«120170_j61400852463787_1_alg».proof.Proof.KernelValue
import proofs.«120170_j61400852463787_1_alg».proof.Proof.RefValue
import Idealize.ShloMosaic.Adequacy
import Idealize.ShloMosaic.Init

set_option maxRecDepth 16384

noncomputable section

namespace Cert.Proof

open Idealize.ShloMosaic Idealize.SL.Sem

/-- The aggregate is one function on both sides: the two programs print the same host operations. -/
theorem agg_eq (z : Cert.KernelIdeal.S100000x128.Idx → EReal) (e : Cert.KernelIdeal.S2x1600000.Idx → BitVec 32) :
    Cert.ReferenceIdeal.RefValue.aggR z e = Cert.KernelIdeal.Stretch.agg z e := rfl

theorem frame_k : Cert.frame_Kernel := fun m ρ _ => Cert.Kernel.Gen.frame m ρ

theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer's output of arguments that agree. -/
theorem algebraic : Cert.algebraic_KernelIdeal_ReferenceIdeal := by
  intro m ρ m' ρ' _ hagree
  refine ⟨fun c => Cert.KernelIdeal.KValue.result m c, ?_, ?_⟩
  · exact (θ_run Cert.KernelIdeal.defs _ _).mono
      (fun r h c => ⟨(h c).1.trans (Cert.KernelIdeal.KValue.W4_result m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.RefValue.result_eq m' c, e0, e1, e2, e3, e4, e5, e6, e7, e8, e9, e10, e11, e12, e13, agg_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
